-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512 : Shape := ⟨1, ![512]⟩
abbrev S512x768 : Shape := ⟨2, ![512, 768]⟩
abbrev S_ : Shape := ⟨0, ![]⟩

class Facts : Prop where
  bcast_S_S512x768 : S_.BroadcastsInDim S512x768 (![] : Fin 0 → Fin S512x768.rank)
  reducesTo_S512x768_S_d0_1 : S512x768.ReducesTo [0, 1] S_
  h_S_ : 0 < S_.numel

variable [Facts]

def fn {F : FTy → Type} [FloatOps F] (main_arg0 : IVec S512 32) (main_arg1 : FVec F S512x768 .f32) : IVec S_ 1 :=
  let main_v0 : FVec F S512x768 .f32 := Host.absf main_arg1
  let main_cst : FVec F S_ .f32 := constant S_ .f32 0x7F800000#32
  let main_v1 : FVec F S512x768 .f32 := broadcastInDim S512x768 ![] bcast_S_S512x768 main_cst
  let main_v2 : IVec S512x768 1 := cmpf .olt main_v0 main_v1
  let main_c : IVec S_ 1 := constantI S_ 1 1#1
  let main_v3 : IVec S_ 1 := (fun x v => Host.reduce IntOp.andi x v reducesTo_S512x768_S_d0_1 h_S_) main_v2 main_c
  main_v3
-- ==== Kernel.lean ====
abbrev S512 : Shape := ⟨1, ![512]⟩
abbrev S512x768 : Shape := ⟨2, ![512, 768]⟩
abbrev S512x512 : Shape := ⟨2, ![512, 512]⟩
abbrev S512x1 : Shape := ⟨2, ![512, 1]⟩
abbrev S768x512 : Shape := ⟨2, ![768, 512]⟩
abbrev S1x512 : Shape := ⟨2, ![1, 512]⟩
abbrev S1x1 : Shape := ⟨2, ![1, 1]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S128x128x1 : Shape := ⟨3, ![128, 128, 1]⟩
abbrev S128x1x128 : Shape := ⟨3, ![128, 1, 128]⟩
abbrev S128x128x128 : Shape := ⟨3, ![128, 128, 128]⟩
abbrev S1 : Shape := ⟨1, ![1]⟩
abbrev S_ : Shape := ⟨0, ![]⟩

abbrev nBuf : Space → Nat
  | .hbm => 9
  | .vmem => 14
  | .smem => 0
  | _ => 0

abbrev bufTy : (tb : Table) → Fin (tcTables nBuf tb) → BufTy
  | .hbm, ⟨0, _⟩ => ⟨S512, .i32⟩
  | .hbm, ⟨1, _⟩ => ⟨S512x768, .f32⟩
  | .hbm, ⟨2, _⟩ => ⟨S512x512, .f32⟩
  | .hbm, ⟨3, _⟩ => ⟨S1x512, .i32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x768, .f32⟩
  | .local _ .vmem, ⟨1, _⟩ => ⟨S512x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x128, .i32⟩
  | .local _ .vmem, ⟨7, _⟩ => ⟨S1x128, .i32⟩
  | .local _ .vmem, ⟨8, _⟩ => ⟨S1x128, .i32⟩
  | .local _ .vmem, ⟨9, _⟩ => ⟨S1x128, .i32⟩
  | .local _ .vmem, ⟨10, _⟩ => ⟨S1x128, .i32⟩
  | .local _ .vmem, ⟨11, _⟩ => ⟨S1x128, .i32⟩
  | .local _ .vmem, ⟨12, _⟩ => ⟨S1x1, .f32⟩
  | .local _ .vmem, ⟨13, _⟩ => ⟨S1x1, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg6_0 : Ref sig .tc := ⟨.vmem, 13, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem6_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨3, ![4, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, false, true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

class Facts₀ : Prop where
  inb_S512x768_S512x768_0_0 : ∀ a, (![0, 0] : Fin 2 → Nat) a + S512x768.size a ≤ S512x768.size a
  h_S512x768 : 0 < S512x768.numel
  reduces_S512x768_S512 : S512x768.Reduces [1] S512
  shapeCasts_S512_S512x1 : S512.ShapeCasts S512x1
  transposes_S512x768_p1_0_S768x512 : S512x768.Transposes [1, 0] S768x512
  transposes_S512x1_p1_0_S1x512 : S512x1.Transposes [1, 0] S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512_S1x512 : S512.ShapeCasts S1x512
  inb_S1x1_S1x1_0_0 : ∀ a, (![0, 0] : Fin 2 → Nat) a + S1x1.size a ≤ S1x1.size a
  h_S1x1 : 0 < S1x1.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S128_S128x1 : S128.ShapeCasts S128x1
  shapeCasts_S128_S1x128 : S128.ShapeCasts S1x128
  broadcasts_S128x1_S128x128 : S128x1.Broadcasts S128x128
  broadcasts_S1x128_S128x128 : S1x128.Broadcasts S128x128
  natLt_1_32 : 1 < 32
  shapeCasts_S128x128_S128x128x1 : S128x128.ShapeCasts S128x128x1
  shapeCasts_S128x128_S128x1x128 : S128x128.ShapeCasts S128x1x128
  broadcasts_S128x128x1_S128x128x128 : S128x128x1.Broadcasts S128x128x128
  broadcasts_S128x1x128_S128x128x128 : S128x1x128.Broadcasts S128x128x128
  reduces_S128x128x128_S128x128 : S128x128x128.Reduces [2] S128x128
  reduces_S128x128_S128 : S128x128.Reduces [1] S128
  reduces_S128x1_S1 : S128x1.Reduces [0] S1
  shapeCasts_S1_S1x1 : S1.ShapeCasts S1x1
  shapeCasts_S1x1_S1x1 : S1x1.ShapeCasts S1x1
  shapeCasts_S1x1_S_ : S1x1.ShapeCasts S_
  dot_S512x768_S768x512_S512x512_1_0_0_1_n_n_wf : DotDims.WF S512x768 S768x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S512x768.size a
  hwx0_0 : ∀ i : grid0.Coords, EltTy.bits .f32 = 32 ∨ (Rect.block (s := S512x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S512x512.size a
  hwx1_0 : ∀ i : grid1.Coords, EltTy.bits .f32 = 32 ∨ (Rect.block (s := S512x512) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x512.size a
  hwx1_1 : ∀ i : grid1.Coords, EltTy.bits .f32 = 32 ∨ (Rect.block (s := S512x512) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x512.size a
  hwx1_2 : ∀ i : grid1.Coords, EltTy.bits .i32 = 32 ∨ (Rect.block (s := S1x512) S1x128.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x512.size a
  hwx1_3 : ∀ i : grid1.Coords, EltTy.bits .i32 = 32 ∨ (Rect.block (s := S1x512) S1x128.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x512.size a
  hwx1_4 : ∀ i : grid1.Coords, EltTy.bits .i32 = 32 ∨ (Rect.block (s := S1x512) S1x128.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf

abbrev win0_0 : Pipeline.Window sig grid0 :=
  Pipeline.Window.ofSpec (Memref.whole main_arg1) S512x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_0) S1x1.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2_1) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S512 : Shape := ⟨1, ![512]⟩
abbrev S512x768 : Shape := ⟨2, ![512, 768]⟩
abbrev S512x1 : Shape := ⟨2, ![512, 1]⟩
abbrev S1x512 : Shape := ⟨2, ![1, 512]⟩
abbrev S512x512 : Shape := ⟨2, ![512, 512]⟩
abbrev S512x512x1 : Shape := ⟨3, ![512, 512, 1]⟩
abbrev S512x1x512 : Shape := ⟨3, ![512, 1, 512]⟩
abbrev S512x512x512 : Shape := ⟨3, ![512, 512, 512]⟩
abbrev S_ : Shape := ⟨0, ![]⟩
abbrev S768x512 : Shape := ⟨2, ![768, 512]⟩

abbrev nBuf : Space → Nat
  | .hbm => 65
  | .vmem => 0
  | .smem => 0
  | _ => 0

abbrev bufTy : (tb : Table) → Fin (tcTables nBuf tb) → BufTy
  | .hbm, ⟨0, _⟩ => ⟨S512, .i32⟩
  | .hbm, ⟨1, _⟩ => ⟨S512x768, .f32⟩
  | .hbm, ⟨2, _⟩ => ⟨S512x1, .i32⟩
  | .hbm, ⟨3, _⟩ => ⟨S1x512, .i32⟩
  | .hbm, ⟨4, _⟩ => ⟨S512x512, .i32⟩
  | .hbm, ⟨5, _⟩ => ⟨S512x512, .i32⟩
  | .hbm, ⟨6, _⟩ => ⟨S512x512, .i1⟩
  | .hbm, ⟨7, _⟩ => ⟨S512x512x1, .i1⟩
  | .hbm, ⟨8, _⟩ => ⟨S512x512, .i1⟩
  | .hbm, ⟨9, _⟩ => ⟨S512x1x512, .i1⟩
  | .hbm, ⟨10, _⟩ => ⟨S512x512x512, .i1⟩
  | .hbm, ⟨11, _⟩ => ⟨S512x512x512, .i1⟩
  | .hbm, ⟨12, _⟩ => ⟨S512x512x512, .i1⟩
  | .hbm, ⟨13, _⟩ => ⟨S512x768, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S1x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S768x512, .f32⟩
  | .hbm, ⟨22, _⟩ => ⟨S512x512, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S_, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .i1⟩
  | .hbm, ⟨33, _⟩ => ⟨S_, .f32⟩
  | .hbm, ⟨34, _⟩ => ⟨S512x512, .f32⟩
  | .hbm, ⟨35, _⟩ => ⟨S512x512, .i1⟩
  | .hbm, ⟨36, _⟩ => ⟨S_, .f32⟩
  | .hbm, ⟨37, _⟩ => ⟨S_, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S_, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S512x512x1, .f32⟩
  | .hbm, ⟨46, _⟩ => ⟨S512x1x512, .f32⟩
  | .hbm, ⟨47, _⟩ => ⟨S512x512x512, .f32⟩
  | .hbm, ⟨48, _⟩ => ⟨S512x512x512, .f32⟩
  | .hbm, ⟨49, _⟩ => ⟨S512x512x512, .f32⟩
  | .hbm, ⟨50, _⟩ => ⟨S512x512x512, .f32⟩
  | .hbm, ⟨51, _⟩ => ⟨S512x512x512, .f32⟩
  | .hbm, ⟨52, _⟩ => ⟨S_, .f32⟩
  | .hbm, ⟨53, _⟩ => ⟨S512x512x512, .f32⟩
  | .hbm, ⟨54, _⟩ => ⟨S512x512x512, .f32⟩
  | .hbm, ⟨55, _⟩ => ⟨S_, .f32⟩
  | .hbm, ⟨56, _⟩ => ⟨S512x512x512, .f32⟩
  | .hbm, ⟨57, _⟩ => ⟨S512x512x512, .f32⟩
  | .hbm, ⟨58, _⟩ => ⟨S_, .f32⟩
  | .hbm, ⟨59, _⟩ => ⟨S_, .f32⟩
  | .hbm, ⟨60, _⟩ => ⟨S512x512x512, .i32⟩
  | .hbm, ⟨61, _⟩ => ⟨S_, .i32⟩
  | .hbm, ⟨62, _⟩ => ⟨S_, .i32⟩
  | .hbm, ⟨63, _⟩ => ⟨S_, .f32⟩
  | .hbm, ⟨64, _⟩ => ⟨S_, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_c : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  reducesTo_S512x768_S512_d1 : S512x768.ReducesTo [1] S512
  h_S_ : 0 < S_.numel
  transposes_S512x768_S768x512_1_0 : S512x768.Transposes [1, 0] S768x512
  bcast_S_S512x512 : S_.BroadcastsInDim S512x512 (![] : Fin 0 → Fin S512x512.rank)
  bcast_S_S512x512x512 : S_.BroadcastsInDim S512x512x512 (![] : Fin 0 → Fin S512x512x512.rank)
  reducesTo_S512x512x512_S_d0_1_2 : S512x512x512.ReducesTo [0, 1, 2] S_
  natLt_1_32 : 1 < 32
  dot_S512x768_S768x512_S512x512_1_0_0_1_n_n_wf : DotDims.WF S512x768 S768x512 S512x512 [1] [0] [0] [1] [] []

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf

class Facts : Prop extends Facts₀ where

variable [Facts]
-- ==== Proof.K.Reg0.lean ====
/-
  Region 0, the distance kernel, at its one grid point: the body loads the whole [512, 768] block of embeddings and
  stores one [512, 512] value, a pure function of that block, over the whole output block. So after the body the
  output's staging buffer holds that function of the input block, whatever it held before; the input's buffer is as it was.
  Stated at a parameter `V`, the contents of the core's buffers when the region is entered.
-/
import proofs.«430113_j6038724018541_3_alg».proof.Proof.Gen.Kernel.Launch
import proofs.«430113_j6038724018541_3_alg».proof.Proof.Gen.Kernel.Skeleton
import proofs.«430113_j6038724018541_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as rectangles. -/
abbrev rIn0 : Rect S512x768 := Rect.unit (s := S512x768) ![0, 0] S512x768.size inb_S512x768_S512x768_0_0
abbrev rOut0 : Rect S512x512 := Rect.unit (s := S512x512) ![0, 0] S512x512.size inb_S512x512_S512x512_0_0

/-- What the body leaves in the output's staging buffer: its one store, of the distance payload of the input block. -/
def out0_1 (x0 : Vec F S512x768 .f32) : Vec F S512x512 .f32 :=
  View.canon [⟨rOut0, k0_pay1 (View.ld x0 rIn0)⟩]

/-- The one store covers the output block. -/
theorem cover0_1 (p0 : Vec F S512x512 .f32) (y : S512x512.Idx) :
    ∃ pc ∈ ([⟨rOut0, p0⟩] : List (View.Piece (Elt F) S512x512 .f32)), y ∈ pc.1.set :=
  View.cover_of_tiled [⟨rOut0, p0⟩] S512x512.size (by rfl) y

set_option maxHeartbeats 1000000 in
/-- The body on whole staging memrefs: the input's at contents `x0`, the output's at anything; it ends with the input's as it
    was and the output's at `out0_1 x0`. -/
theorem sound_kernel0 (c : Dev nD) (E : Set ℕ) (i : grid0.Coords) (arg1 : Memref sig .tc .vmem S512x768 .f32) (harg1 : arg1.IsWhole)
    (arg2 : Memref sig .tc .vmem S512x512 .f32) (harg2 : arg2.IsWhole) (x0 : Vec F S512x768 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body the input's buffer at its block
    and the output's at `out0_1` of it; the invariant is the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Defs.lean ====
/-
  Region 1, the triplet kernel, over its 4 × 4 × 4 grid: what its runs share. The body's one branch is taken exactly at the first
  grid point (all three coordinates zero), where both accumulators are reset before they are added to.
-/
import proofs.«430113_j6038724018541_3_alg».proof.Proof.K.Reg0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's branch condition, from the grid coordinates: all three are zero. -/
abbrev cond1_0 (i : grid1.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1

/-- It holds at the first point only: decided over the 64 points. -/
theorem hcond1_0 : ∀ t : Fin cfg1.N, cond1_0 (grid1.coords t) ↔ t.val = 0 :=
  (by decide +kernel : ∀ t : Fin grid1.N, cond1_0 (grid1.coords t) ↔ t.val = 0)

/-- One staging buffer of each output window, through which its contents are stated (the choice does not matter). -/
abbrev VO1_5 : View sig .tc .vmem S1x1 .f32 := (Memref.whole cc1_stg5_0 : Memref sig .tc .vmem S1x1 .f32).view
abbrev VO1_6 : View sig .tc .vmem S1x1 .f32 := (Memref.whole cc1_stg6_0 : Memref sig .tc .vmem S1x1 .f32).view

/-- Each window's current staging memref at point `t`, as the pipeline passes it, and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)

end Cert.Kernel.Hand

end
-- ==== Proof.K.Run1A.lean ====
/-
  Region 1's body at the first grid point (the branch taken): both accumulators are reset to zero, then the tile's clamped sum
  and its count of valid triplets are added. The pieces each output's staging buffer ends with are found by running the body.
-/
import proofs.«430113_j6038724018541_3_alg».proof.Proof.K.Reg1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run where the branch is taken: the five input buffers at their contents, the two outputs' at anything; it ends with
    the inputs' as they were and each output's buffer with its pieces written. -/
noncomputable def kernelRun1_A (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : cond1_0 i)
    (x0 x1 : Vec F S128x128 .f32) (x2 x3 x4 : Vec F S1x128 .i32) :
    Σ' (L5 : List (View.Piece (Elt F) S1x1 .f32)), { L6 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f L6)) -∗ K ⟨⟩))
          ⊢ wp frame (wpE (defs₀ (F := F)) Variants.none c none) E
              (cc1__triplet_kernel i arg3 harg3 arg4 harg4 arg5 harg5 arg6 harg6 arg7 harg7 arg8 harg8 arg9 harg9) K } := by
  refine ⟨?_, ?_, fun E K => ?run⟩
  case run =>
    simp only [cc1__triplet_kernel_eq_skeleton]; unfold cc1__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact H6

end Cert.Kernel.Hand

end
-- ==== Proof.K.Run1B.lean ====
/-
  Region 1's body at every later grid point (the branch not taken): the tile's clamped sum and its count of valid triplets are
  added to what the point before left in the two accumulators. The pieces each output's staging buffer ends with are found by
  running the body.
-/
import proofs.«430113_j6038724018541_3_alg».proof.Proof.K.Run1A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run where the branch is not taken: the five input buffers at their contents, the two outputs' at their running
    contents `xo5`, `xo6`; it ends with the inputs' as they were and each output's buffer with its pieces written. -/
noncomputable def kernelRun1_B (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : ¬cond1_0 i)
    (x0 x1 : Vec F S128x128 .f32) (x2 x3 x4 : Vec F S1x128 .i32) (xo5 xo6 : Vec F S1x1 .f32) :
    Σ' (L5 : List (View.Piece (Elt F) S1x1 .f32)), { L6 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare xo5 ∗ owns (c : Thread nD τ) arg9 fullShare xo6
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f L6)) -∗ K ⟨⟩))
          ⊢ wp frame (wpE (defs₀ (F := F)) Variants.none c none) E
              (cc1__triplet_kernel i arg3 harg3 arg4 harg4 arg5 harg5 arg6 harg6 arg7 harg7 arg8 harg8 arg9 harg9) K } := by
  refine ⟨?_, ?_, fun E K => ?run⟩
  case run =>
    simp only [cc1__triplet_kernel_eq_skeleton]; unfold cc1__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2
    obtain rfl := harg6.eq_unread hf3; obtain rfl := harg7.eq_unread hf4
    obtain rfl := harg8.eq_unread hf5; obtain rfl := harg9.eq_unread hf6
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact H6

end Cert.Kernel.Hand

end
-- ==== Proof.K.Reg1.lean ====
/-
  Region 1, the triplet kernel: what its two accumulators hold after each of the 64 grid points, and the body obligation.
  Each of the five input windows' staging buffers holds its block at every point, fetched there or not. The two output windows
  (one [1, 1] block each, never written back before the last point) carry the running sums: at the first point the body resets
  them and adds the tile's sums, at every later point it adds to what the point before left.
-/
import proofs.«430113_j6038724018541_3_alg».proof.Proof.K.Run1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the two accumulators -/

theorem cover1_A_5 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : cond1_0 i) (x0 x1 : Vec F S128x128 .f32) (x2 x3 x4 : Vec F S1x128 .i32) (y : S1x1.Idx) :
    ∃ pc ∈ (kernelRun1_A c i arg3 harg3 arg4 harg4 arg5 harg5 arg6 harg6 arg7 harg7 arg8 harg8 arg9 harg9 hc0 x0 x1 x2 x3 x4).1, y ∈ pc.1.set :=
  View.cover_of_tiledL (kernelRun1_A c i arg3 harg3 arg4 harg4 arg5 harg5 arg6 harg6 arg7 harg7 arg8 harg8 arg9 harg9 hc0 x0 x1 x2 x3 x4).1 S1x1.size (by sl_kernel_rfl) y
theorem cover1_A_6 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : cond1_0 i) (x0 x1 : Vec F S128x128 .f32) (x2 x3 x4 : Vec F S1x128 .i32) (y : S1x1.Idx) :
    ∃ pc ∈ (kernelRun1_A c i arg3 harg3 arg4 harg4 arg5 harg5 arg6 harg6 arg7 harg7 arg8 harg8 arg9 harg9 hc0 x0 x1 x2 x3 x4).2.1, y ∈ pc.1.set :=
  View.cover_of_tiledL (kernelRun1_A c i arg3 harg3 arg4 harg4 arg5 harg5 arg6 harg6 arg7 harg7 arg8 harg8 arg9 harg9 hc0 x0 x1 x2 x3 x4).2.1 S1x1.size (by sl_kernel_rfl) y
theorem cover1_B_5 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : ¬cond1_0 i) (x0 x1 : Vec F S128x128 .f32) (x2 x3 x4 : Vec F S1x128 .i32) (xo5 xo6 : Vec F S1x1 .f32) (y : S1x1.Idx) :
    ∃ pc ∈ (kernelRun1_B c i arg3 harg3 arg4 harg4 arg5 harg5 arg6 harg6 arg7 harg7 arg8 harg8 arg9 harg9 hc0 x0 x1 x2 x3 x4 xo5 xo6).1, y ∈ pc.1.set :=
  View.cover_of_tiledL (kernelRun1_B c i arg3 harg3 arg4 harg4 arg5 harg5 arg6 harg6 arg7 harg7 arg8 harg8 arg9 harg9 hc0 x0 x1 x2 x3 x4 xo5 xo6).1 S1x1.size (by sl_kernel_rfl) y
theorem cover1_B_6 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : ¬cond1_0 i) (x0 x1 : Vec F S128x128 .f32) (x2 x3 x4 : Vec F S1x128 .i32) (xo5 xo6 : Vec F S1x1 .f32) (y : S1x1.Idx) :
    ∃ pc ∈ (kernelRun1_B c i arg3 harg3 arg4 harg4 arg5 harg5 arg6 harg6 arg7 harg7 arg8 harg8 arg9 harg9 hc0 x0 x1 x2 x3 x4 xo5 xo6).2.1, y ∈ pc.1.set :=
  View.cover_of_tiledL (kernelRun1_B c i arg3 harg3 arg4 harg4 arg5 harg5 arg6 harg6 arg7 harg7 arg8 harg8 arg9 harg9 hc0 x0 x1 x2 x3 x4 xo5 xo6).2.1 S1x1.size (by sl_kernel_rfl) y

/-- What the first point leaves in the loss accumulator: its pieces read back. -/
def out1_A_5 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : cond1_0 i) (x0 x1 : Vec F S128x128 .f32) (x2 x3 x4 : Vec F S1x128 .i32) : Vec F S1x1 .f32 :=
  VO1_5.read (Elt F) (VO1_5.writes (Elt F) VO1_5.junk (kernelRun1_A c i arg3 harg3 arg4 harg4 arg5 harg5 arg6 harg6 arg7 harg7 arg8 harg8 arg9 harg9 hc0 x0 x1 x2 x3 x4).1)
/-- What the first point leaves in the count accumulator. -/
def out1_A_6 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : cond1_0 i) (x0 x1 : Vec F S128x128 .f32) (x2 x3 x4 : Vec F S1x128 .i32) : Vec F S1x1 .f32 :=
  VO1_6.read (Elt F) (VO1_6.writes (Elt F) VO1_6.junk (kernelRun1_A c i arg3 harg3 arg4 harg4 arg5 harg5 arg6 harg6 arg7 harg7 arg8 harg8 arg9 harg9 hc0 x0 x1 x2 x3 x4).2.1)
/-- What a later point leaves in the loss accumulator, over what the point before left in both. -/
def out1_B_5 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : ¬cond1_0 i) (x0 x1 : Vec F S128x128 .f32) (x2 x3 x4 : Vec F S1x128 .i32) (xo5 xo6 : Vec F S1x1 .f32) : Vec F S1x1 .f32 :=
  VO1_5.read (Elt F) (VO1_5.writes (Elt F) VO1_5.junk (kernelRun1_B c i arg3 harg3 arg4 harg4 arg5 harg5 arg6 harg6 arg7 harg7 arg8 harg8 arg9 harg9 hc0 x0 x1 x2 x3 x4 xo5 xo6).1)
/-- What a later point leaves in the count accumulator. -/
def out1_B_6 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : ¬cond1_0 i) (x0 x1 : Vec F S128x128 .f32) (x2 x3 x4 : Vec F S1x128 .i32) (xo5 xo6 : Vec F S1x1 .f32) : Vec F S1x1 .f32 :=
  VO1_6.read (Elt F) (VO1_6.writes (Elt F) VO1_6.junk (kernelRun1_B c i arg3 harg3 arg4 harg4 arg5 harg5 arg6 harg6 arg7 harg7 arg8 harg8 arg9 harg9 hc0 x0 x1 x2 x3 x4 xo5 xo6).2.1)

/-! ## The accumulation -/

/-- What the two accumulators (loss, count) hold after the body at position `n`: the first point's contents at 0, and at `n + 1`
    the later-point contents over what this leaves at `n`. -/
def outsAt1 (c : Dev nD) : (n : ℕ) → n < cfg1.N → Vec F S1x1 .f32 × Vec F S1x1 .f32
  | 0, hn =>
    (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩),
     out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => Nat.succ_ne_zero n ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
        (outsAt1 c n (Nat.lt_of_succ_lt hn)).1 (outsAt1 c n (Nat.lt_of_succ_lt hn)).2,
     out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => Nat.succ_ne_zero n ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
        (outsAt1 c n (Nat.lt_of_succ_lt hn)).1 (outsAt1 c n (Nat.lt_of_succ_lt hn)).2)

/-- At the first point: the reset-and-add contents. -/
theorem outsAt1_A (c : Dev nD) (t : Fin cfg1.N) (h0 : t.val = 0) :
    outsAt1 V c t.val t.isLt =
      (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t),
       out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)) := by
  obtain ⟨n, hn⟩ := t
  cases n with
  | zero => exact rfl
  | succ n => exact absurd h0 (Nat.succ_ne_zero n)

/-- At a later point: the add contents, over what the point before left. -/
theorem outsAt1_B (c : Dev nD) (t : Fin cfg1.N) (h0 : ¬t.val = 0) :
    outsAt1 V c t.val t.isLt =
      (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t)
          (outsAt1 V c (t.val - 1) (Nat.lt_of_le_of_lt (Nat.sub_le _ _) t.isLt)).1 (outsAt1 V c (t.val - 1) (Nat.lt_of_le_of_lt (Nat.sub_le _ _) t.isLt)).2,
       out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t)
          (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 1 on core `c`: the arrays as the region finds them; after the body each input's buffer at its block
    and the two outputs' at the accumulation; the invariant is the scoped rest and the generator register; nothing owed. The
    distance array is read through two windows and the type-id array through three: each window holds a share of its array,
    the shares of one array composing to the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2
  Φ _ := Pipeline.ΦA spec1 c
  q w := match w with
    | ⟨0, _⟩ => fullShare.left
    | ⟨1, _⟩ => fullShare.right
    | ⟨2, _⟩ => fullShare.left
    | ⟨3, _⟩ => fullShare.right.left
    | ⟨4, _⟩ => fullShare.right.right
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- At a later point the loss accumulator's buffer holds what the body left at the point before: the point is not the first and
    the buffer was not written back between (only the last point writes back). -/
theorem before1_5_B (c : Dev nD) (t : Fin cfg1.N) (h0 : ¬t.val = 0) (d) :
    (dat1 V c).before 5 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 5 rfl t h0 (Bool.eq_false_iff.mpr fun h => by have := (flush1_5 _).mp h; dsimp only at this; omega)
    (fun _ => rfl) (fun _ _ => rfl)]
  dsimp only [dat1]
theorem before1_6_B (c : Dev nD) (t : Fin cfg1.N) (h0 : ¬t.val = 0) (d) :
    (dat1 V c).before 6 t d = (outsAt1 V c (t.val - 1) (Nat.lt_of_le_of_lt (Nat.sub_le _ _) t.isLt)).2 := by
  have hN : t.val < 64 := lt_of_lt_of_eq t.isLt (show cfg1.N = 64 from N_1)
  rw [Dat.before_out_kept _ 6 rfl t h0 (Bool.eq_false_iff.mpr fun h => by have := (flush1_6 _).mp h; dsimp only at this; omega)
    (fun _ => rfl) (fun _ _ => rfl)]
  dsimp only [dat1]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1600000 in
/-- The body at any point: the inputs' buffers hold their blocks; at the first point the reset-and-add run applies, at a later one
    the add run over what the point before left; the invariant passes through unread and nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  by_cases h0 : t.val = 0
  · rw [outsAt1_A V c t h0]
    dsimp only
    unfold out1_A_5 out1_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ ((hcond1_0 t).mpr h0) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_A_5 c _ _ _ _ _ _ _ _ _ _ _ _ _ _ _ _ _ _ _ _ _)
    · unfold owns; iexists _; isplitr
      swap; · iexact H6
      ipureintro; exact View.read_writes_of_cover _ _ _ _ _ (cover1_A_6 c _ _ _ _ _ _ _ _ _ _ _ _ _ _ _ _ _ _ _ _ _)
  · rw [outsAt1_B V c t h0]
    dsimp only
    simp only [before1_5_B V c t h0, before1_6_B V c t h0]
    unfold out1_B_5 out1_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) (iblk1 V c 4 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_B_5 c _ _ _ _ _ _ _ _ _ _ _ _ _ _ _ _ _ _ _ _ _ _ _)
    · unfold owns; iexists _; isplitr
      swap; · iexact H6
      ipureintro; exact View.read_writes_of_cover _ _ _ _ _ (cover1_B_6 c _ _ _ _ _ _ _ _ _ _ _ _ _ _ _ _ _ _ _ _ _ _ _)

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Share.lean ====
/-
  Region 1's arrays at its entry and exit. The distance array is read through two windows and the type-id array through three,
  so the core's hold on each is split among its windows at entry (shares composing to the full share) and rejoined at exit, where
  every window of one array still holds the entry contents (an input array is never written); the two outputs are held outright
  and leave at what the write-backs left.
-/
import proofs.«430113_j6038724018541_3_alg».proof.Proof.K.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four distinct buffers behind region 1's seven windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0) ↦{fullShare} W main_v0) ∗ (((c : Thread nD τ).loc main_v1) ↦{fullShare} W main_v1)
          ∗ (((c : Thread nD τ).loc main_v2_0) ↦{fullShare} W main_v2_0) ∗ (((c : Thread nD τ).loc main_v2_1) ↦{fullShare} W main_v2_1)) := by
  unfold Pipeline.arrBufs
  exact bigSep_eq_bigSepL_of_eq [main_v0, main_v1, main_v2_0, main_v2_1] (by decide) (by decide) _

/-- The seven windows' holds on their arrays, one by one, each at its share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare.left} G 2) ∗ (((c : Thread nD τ).loc main_v1) ↦{fullShare.right.left} G 3)
          ∗ (((c : Thread nD τ).loc main_v1) ↦{fullShare.right.right} G 4)
          ∗ (((c : Thread nD τ).loc main_v2_0) ↦{fullShare} G 5) ∗ (((c : Thread nD τ).loc main_v2_1) ↦{fullShare} G 6)) := by
  unfold Dat.arrays
  rw [bigSep_W1]
  rw [(arr_whole1 0).set_eq_univ, (arr_whole1 2).set_eq_univ, (arr_whole1 5).set_eq_univ, (arr_whole1 6).set_eq_univ]
  rfl

/-- ENTRY: the core's unscoped buffers at the entry contents are region 1's arrays, each window at its share, and the rest. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  rw [show (Pipeline.arrBufs (cfgs 1).spec c (V c) : sProp 𝕄) = _ from arrBufs1_eq c (V c), arrays1_eq]
  iintro ⟨H0, H1, H5, H6⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  ihave H1r' := (pointsTo_share (PosShare.mem_left_op_right fullShare.right)).1 $$ H1r
  icases H1r' with ⟨H1rl, H1rr⟩
  isplitl [H0l]; · iexact H0l
  isplitl [H0r]; · iexact H0r
  isplitl [H1l]; · iexact H1l
  isplitl [H1rl]; · iexact H1rl
  isplitl [H1rr]; · iexact H1rr
  isplitl [H5]; · iexact H5
  iexact H6

/-- EXIT: region 1's arrays at their final contents and the rest are the core's unscoped buffers at any valuation that has the
    two outputs at what the write-backs left and agrees with the entry contents elsewhere. -/
theorem exit1 (c : Dev nD) (V' : (b : Ref sig .tc) → Buf (Elt F) ((c : Thread nD τ).loc b))
    (h5 : (dat1 V c).arrAt 5 cfg1.N = V' main_v2_0) (h6 : (dat1 V c).arrAt 6 cfg1.N = V' main_v2_1)
    (hrest : ∀ b, b ≠ main_v2_0 → b ≠ main_v2_1 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs 1 winFacts₀1.arr_unscoped c V']
  refine sep_mono ?_ (Entails.of_eq ?_)
  · rw [show (Pipeline.arrBufs (cfgs 1).spec c V' : sProp 𝕄) = _ from arrBufs1_eq c V', arrays1_eq]
    rw [show (dat1 V c).arrAt 0 cfg1.N = V c main_v0 from ((dat1 V c).arrAt_in 0 rfl _).trans (A_eq1 V c 0),
      show (dat1 V c).arrAt 1 cfg1.N = V c main_v0 from ((dat1 V c).arrAt_in 1 rfl _).trans (A_eq1 V c 1),
      show (dat1 V c).arrAt 2 cfg1.N = V c main_v1 from ((dat1 V c).arrAt_in 2 rfl _).trans (A_eq1 V c 2),
      show (dat1 V c).arrAt 3 cfg1.N = V c main_v1 from ((dat1 V c).arrAt_in 3 rfl _).trans (A_eq1 V c 3),
      show (dat1 V c).arrAt 4 cfg1.N = V c main_v1 from ((dat1 V c).arrAt_in 4 rfl _).trans (A_eq1 V c 4),
      h5, h6, hrest main_v0 (by decide) (by decide), hrest main_v1 (by decide) (by decide)]
    iintro ⟨H0l, H0r, H1l, H1rl, H1rr, H5, H6⟩
    isplitl [H0l H0r]
    · iapply (pointsTo_share (PosShare.mem_left_op_right fullShare)).2
      isplitl [H0l] <;> iassumption
    isplitl [H1l H1rl H1rr]
    · iapply (pointsTo_share (PosShare.mem_left_op_right fullShare)).2
      isplitl [H1l]; · iexact H1l
      iapply (pointsTo_share (PosShare.mem_left_op_right fullShare.right)).2
      isplitl [H1rl] <;> iassumption
    isplitl [H5]; · iexact H5
    iexact H6
  · unfold Pipeline.unscopedRest
    refine bigSep_congr fun b hb => ?_
    have hb' := (Finset.mem_sdiff.mp hb).2
    rw [hrest b (fun e => hb' (e ▸ Finset.mem_image.mpr ⟨5, Finset.mem_univ _, rfl⟩)) (fun e => hb' (e ▸ Finset.mem_image.mpr ⟨6, Finset.mem_univ _, rfl⟩))]

end Cert.Kernel.Hand

end
-- ==== Proof.K.Run.lean ====
/-
  The run of @main: region 0 (the distance kernel), the reshape of the type ids, region 1 (the triplet kernel), and the two
  reshapes and the division. The core's unscoped buffers are tracked at a valuation through the four items: as launched; with
  the distance array at what region 0's write-back leaves; after the reshape; with the two accumulators' arrays at what region 1's
  last write-backs leave; after the closing host operations. Every weakly fair execution terminates, and the final memory holds
  the result buffer at the last valuation and both arguments as launched.
-/
import proofs.«430113_j6038724018541_3_alg».proof.Proof.K.Share
import proofs.«430113_j6038724018541_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 (c : Dev nD) : Valuation τ sig (Elt F) := fun b => m (c, b)
/-- The same read at the TensorCore's references: what region 0's proof data take. -/
abbrev U0 : (c : Dev nD) → (b : Ref sig .tc) → Buf (Elt F) ((c : Thread nD τ).loc b) := fun c b => W0 m c b
/-- After region 0: the distance array at what its write-back leaves, every other buffer as launched. -/
def W1 (c : Dev nD) : Valuation τ sig (Elt F) := Function.update (W0 m c) main_v0 ((dat0 (U0 m) c).arrAt 1 cfg0.N)
/-- After the reshape of the type ids: region 1's entry. -/
abbrev W2 (c : Dev nD) : Valuation τ sig (Elt F) := StableHlo.after hostOps1 (W1 m c)
abbrev U2 : (c : Dev nD) → (b : Ref sig .tc) → Buf (Elt F) ((c : Thread nD τ).loc b) := fun c b => W2 m c b
/-- After region 1: the two accumulators' arrays at what the last write-backs leave, every other buffer as entered. -/
def W3 (c : Dev nD) : Valuation τ sig (Elt F) :=
  Function.update (Function.update (W2 m c) main_v2_0 ((dat1 (U2 m) c).arrAt 5 cfg1.N)) main_v2_1 ((dat1 (U2 m) c).arrAt 6 cfg1.N)
/-- After the closing host operations. -/
abbrev W4 (c : Dev nD) : Valuation τ sig (Elt F) := StableHlo.after hostOps2 (W3 m c)

theorem W1_main_v0 (c : Dev nD) : W1 m c main_v0 = (dat0 (U0 m) c).arrAt 1 cfg0.N := by
  unfold W1; exact Function.update_self ..
theorem W1_of_ne (c : Dev nD) (r : Ref sig .tc) (h : r ≠ main_v0) : W1 m c r = W0 m c r := by
  unfold W1; exact Function.update_of_ne (StableHlo.devRef_ne_of_ne h) ..
theorem W3_main_v2_0 (c : Dev nD) : W3 m c main_v2_0 = (dat1 (U2 m) c).arrAt 5 cfg1.N := by
  unfold W3; rw [Function.update_of_ne (StableHlo.devRef_ne_of_ne (by decide : main_v2_0 ≠ main_v2_1))]; exact Function.update_self ..
theorem W3_main_v2_1 (c : Dev nD) : W3 m c main_v2_1 = (dat1 (U2 m) c).arrAt 6 cfg1.N := by
  unfold W3; exact Function.update_self ..
theorem W3_of_ne (c : Dev nD) (r : Ref sig .tc) (h0 : r ≠ main_v2_0) (h1 : r ≠ main_v2_1) : W3 m c r = W2 m c r := by
  unfold W3; rw [Function.update_of_ne (StableHlo.devRef_ne_of_ne h1), Function.update_of_ne (StableHlo.devRef_ne_of_ne h0)]

/-- No item writes an argument: each reaches the end as launched. -/
theorem W4_of_arg (c : Dev nD) (r : Ref sig .tc) (h2 : r ∉ hostOps2_W) (h30 : r ≠ main_v2_0) (h31 : r ≠ main_v2_1) (h1 : r ∉ hostOps1_W) (h0 : r ≠ main_v0) :
    W4 m c r = m ((c : Thread nD τ).loc r) :=
  (StableHlo.after_of_writes_sub hostOps2 _ hostOps2_writes h2).trans <| (W3_of_ne m c r h30 h31).trans <|
    (StableHlo.after_of_writes_sub hostOps1 _ hostOps1_writes h1).trans <| (W1_of_ne m c r h0).trans rfl
theorem W4_main_arg0 (c : Dev nD) : W4 m c main_arg0 = m ((c : Thread nD τ).loc main_arg0) :=
  W4_of_arg m c main_arg0 (by decide) (by decide) (by decide) (by decide) (by decide)
theorem W4_main_arg1 (c : Dev nD) : W4 m c main_arg1 = m ((c : Thread nD τ).loc main_arg1) :=
  W4_of_arg m c main_arg1 (by decide) (by decide) (by decide) (by decide) (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (W4 m c) ∗ ∃ r, prngReg c r)

/-! ## The regions as segments -/

theorem hF0 (c : Dev nD) (w : Fin cfg0.W) : (dat0 (U0 m) c).arrAt w cfg0.N = (fun b : Ref sig .tc => W1 m c b) (Pipeline.arrRef spec0 w) := by
  match w with
  | ⟨0, _⟩ => exact ((dat0 (U0 m) c).arrAt_in 0 rfl _).trans ((A_eq0 (U0 m) c 0).trans (W1_of_ne m c main_arg1 (by decide)).symm)
  | ⟨1, _⟩ => exact (W1_main_v0 m c).symm
theorem hrest0 (c : Dev nD) : ∀ b : Ref sig .tc, b ∉ Finset.univ.image (Pipeline.arrRef spec0) → W1 m c b = W0 m c b :=
  fun b hb => W1_of_ne m c b fun e => hb (Finset.mem_image.mpr ⟨1, Finset.mem_univ _, e.symm⟩)

set_option backward.isDefEq.respectTransparency.types false in
/-- Region 0 over the thread state: entered from every unscoped buffer as launched, left with the distance array written. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (fun b : Ref sig .tc => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer after the reshape, left with the two accumulators'
    arrays written. Its shared arrays are split among its windows at entry and rejoined at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit : (unscopedBufs c (U2 m c) : sProp 𝕄)
        ⊢ iprop((pdats m 1 c).arrays ((pdats m 1 c).arrAt · 0) ∗ Pipeline.unscopedRest spec1 c (U2 m c)) := entry1 (U2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (U2 m c))
        ⊢ (unscopedBufs c (fun b : Ref sig .tc => W3 m c b) : sProp 𝕄) :=
      exit1 (U2 m) c (fun b : Ref sig .tc => W3 m c b) (W3_main_v2_0 m c).symm (W3_main_v2_1 m c).symm (fun b h0 h1 => W3_of_ne m c b h0 h1)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order. -/
abbrev segsK : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
/-- @main is the run of the segments. -/
theorem main_run (c : Dev nD) : main (F := F) c = Pipeline.Seg.run (segsK m) := (main_chain c).trans (by chain_rfl)

set_option backward.isDefEq.respectTransparency.types false in
/-- THE RUN: from any memory with zero counters every weakly fair execution of @main terminates, nothing faulting, and every final
    state holds the result buffer at the last valuation and both arguments as launched. -/
theorem run_main : θ_run defs (onTc (τ := τ) (main (F := F))) ⟨m, fun _ => 0, ρ⟩ (fun r => ∀ c : Dev nD,
      r.2.mem ((c.tc : Thread nD τ).loc main_v5) = W4 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segsK m)
    (fun c Q => by rw [main_run m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v5 (by decide)),
       (h c _ (mem_uc main_arg0 (by decide))).trans (W4_main_arg0 m c),
       (h c _ (mem_uc main_arg1 (by decide))).trans (W4_main_arg1 m c)⟩)

end Cert.Kernel.Hand

end
-- ==== Proof.KI.Reg0.lean ====
/-
  Region 0, the distance kernel, at its one grid point: the body loads the whole [512, 768] block of embeddings and
  stores one [512, 512] value, a pure function of that block, over the whole output block. So after the body the
  output's staging buffer holds that function of the input block, whatever it held before; the input's buffer is as it was.
  Stated at a parameter `V`, the contents of the core's buffers when the region is entered.
-/
import proofs.«430113_j6038724018541_3_alg».proof.Proof.Gen.KernelIdeal.Launch
import proofs.«430113_j6038724018541_3_alg».proof.Proof.Gen.KernelIdeal.Skeleton
import proofs.«430113_j6038724018541_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as rectangles. -/
abbrev rIn0 : Rect S512x768 := Rect.unit (s := S512x768) ![0, 0] S512x768.size inb_S512x768_S512x768_0_0
abbrev rOut0 : Rect S512x512 := Rect.unit (s := S512x512) ![0, 0] S512x512.size inb_S512x512_S512x512_0_0

/-- What the body leaves in the output's staging buffer: its one store, of the distance payload of the input block. -/
def out0_1 (x0 : Vec F S512x768 .f32) : Vec F S512x512 .f32 :=
  View.canon [⟨rOut0, k0_pay1 (View.ld x0 rIn0)⟩]

/-- The one store covers the output block. -/
theorem cover0_1 (p0 : Vec F S512x512 .f32) (y : S512x512.Idx) :
    ∃ pc ∈ ([⟨rOut0, p0⟩] : List (View.Piece (Elt F) S512x512 .f32)), y ∈ pc.1.set :=
  View.cover_of_tiled [⟨rOut0, p0⟩] S512x512.size (by rfl) y

set_option maxHeartbeats 1000000 in
/-- The body on whole staging memrefs: the input's at contents `x0`, the output's at anything; it ends with the input's as it
    was and the output's at `out0_1 x0`. -/
theorem sound_kernel0 (c : Dev nD) (E : Set ℕ) (i : grid0.Coords) (arg1 : Memref sig .tc .vmem S512x768 .f32) (harg1 : arg1.IsWhole)
    (arg2 : Memref sig .tc .vmem S512x512 .f32) (harg2 : arg2.IsWhole) (x0 : Vec F S512x768 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body the input's buffer at its block
    and the output's at `out0_1` of it; the invariant is the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Defs.lean ====
/-
  Region 1, the triplet kernel, over its 4 × 4 × 4 grid: what its runs share. The body's one branch is taken exactly at the first
  grid point (all three coordinates zero), where both accumulators are reset before they are added to.
-/
import proofs.«430113_j6038724018541_3_alg».proof.Proof.KI.Reg0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's branch condition, from the grid coordinates: all three are zero. -/
abbrev cond1_0 (i : grid1.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1

/-- It holds at the first point only: decided over the 64 points. -/
theorem hcond1_0 : ∀ t : Fin cfg1.N, cond1_0 (grid1.coords t) ↔ t.val = 0 :=
  (by decide +kernel : ∀ t : Fin grid1.N, cond1_0 (grid1.coords t) ↔ t.val = 0)

/-- One staging buffer of each output window, through which its contents are stated (the choice does not matter). -/
abbrev VO1_5 : View sig .tc .vmem S1x1 .f32 := (Memref.whole cc1_stg5_0 : Memref sig .tc .vmem S1x1 .f32).view
abbrev VO1_6 : View sig .tc .vmem S1x1 .f32 := (Memref.whole cc1_stg6_0 : Memref sig .tc .vmem S1x1 .f32).view

/-- Each window's current staging memref at point `t`, as the pipeline passes it, and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)

end Cert.KernelIdeal.Hand

end
-- ==== Proof.KI.Run1A.lean ====
/-
  Region 1's body at the first grid point (the branch taken): both accumulators are reset to zero, then the tile's clamped sum
  and its count of valid triplets are added. The pieces each output's staging buffer ends with are found by running the body.
-/
import proofs.«430113_j6038724018541_3_alg».proof.Proof.KI.Reg1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run where the branch is taken: the five input buffers at their contents, the two outputs' at anything; it ends with
    the inputs' as they were and each output's buffer with its pieces written. -/
noncomputable def kernelRun1_A (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : cond1_0 i)
    (x0 x1 : Vec F S128x128 .f32) (x2 x3 x4 : Vec F S1x128 .i32) :
    Σ' (L5 : List (View.Piece (Elt F) S1x1 .f32)), { L6 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f L6)) -∗ K ⟨⟩))
          ⊢ wp frame (wpE (defs₀ (F := F)) Variants.none c none) E
              (cc1__triplet_kernel i arg3 harg3 arg4 harg4 arg5 harg5 arg6 harg6 arg7 harg7 arg8 harg8 arg9 harg9) K } := by
  refine ⟨?_, ?_, fun E K => ?run⟩
  case run =>
    simp only [cc1__triplet_kernel_eq_skeleton]; unfold cc1__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact H6

end Cert.KernelIdeal.Hand

end
-- ==== Proof.KI.Run1B.lean ====
/-
  Region 1's body at every later grid point (the branch not taken): the tile's clamped sum and its count of valid triplets are
  added to what the point before left in the two accumulators. The pieces each output's staging buffer ends with are found by
  running the body.
-/
import proofs.«430113_j6038724018541_3_alg».proof.Proof.KI.Run1A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run where the branch is not taken: the five input buffers at their contents, the two outputs' at their running
    contents `xo5`, `xo6`; it ends with the inputs' as they were and each output's buffer with its pieces written. -/
noncomputable def kernelRun1_B (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : ¬cond1_0 i)
    (x0 x1 : Vec F S128x128 .f32) (x2 x3 x4 : Vec F S1x128 .i32) (xo5 xo6 : Vec F S1x1 .f32) :
    Σ' (L5 : List (View.Piece (Elt F) S1x1 .f32)), { L6 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare xo5 ∗ owns (c : Thread nD τ) arg9 fullShare xo6
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f L6)) -∗ K ⟨⟩))
          ⊢ wp frame (wpE (defs₀ (F := F)) Variants.none c none) E
              (cc1__triplet_kernel i arg3 harg3 arg4 harg4 arg5 harg5 arg6 harg6 arg7 harg7 arg8 harg8 arg9 harg9) K } := by
  refine ⟨?_, ?_, fun E K => ?run⟩
  case run =>
    simp only [cc1__triplet_kernel_eq_skeleton]; unfold cc1__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2
    obtain rfl := harg6.eq_unread hf3; obtain rfl := harg7.eq_unread hf4
    obtain rfl := harg8.eq_unread hf5; obtain rfl := harg9.eq_unread hf6
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact H6

end Cert.KernelIdeal.Hand

end
-- ==== Proof.KI.Reg1.lean ====
/-
  Region 1, the triplet kernel: what its two accumulators hold after each of the 64 grid points, and the body obligation.
  Each of the five input windows' staging buffers holds its block at every point, fetched there or not. The two output windows
  (one [1, 1] block each, never written back before the last point) carry the running sums: at the first point the body resets
  them and adds the tile's sums, at every later point it adds to what the point before left.
-/
import proofs.«430113_j6038724018541_3_alg».proof.Proof.KI.Run1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the two accumulators -/

theorem cover1_A_5 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : cond1_0 i) (x0 x1 : Vec F S128x128 .f32) (x2 x3 x4 : Vec F S1x128 .i32) (y : S1x1.Idx) :
    ∃ pc ∈ (kernelRun1_A c i arg3 harg3 arg4 harg4 arg5 harg5 arg6 harg6 arg7 harg7 arg8 harg8 arg9 harg9 hc0 x0 x1 x2 x3 x4).1, y ∈ pc.1.set :=
  View.cover_of_tiledL (kernelRun1_A c i arg3 harg3 arg4 harg4 arg5 harg5 arg6 harg6 arg7 harg7 arg8 harg8 arg9 harg9 hc0 x0 x1 x2 x3 x4).1 S1x1.size (by sl_kernel_rfl) y
theorem cover1_A_6 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : cond1_0 i) (x0 x1 : Vec F S128x128 .f32) (x2 x3 x4 : Vec F S1x128 .i32) (y : S1x1.Idx) :
    ∃ pc ∈ (kernelRun1_A c i arg3 harg3 arg4 harg4 arg5 harg5 arg6 harg6 arg7 harg7 arg8 harg8 arg9 harg9 hc0 x0 x1 x2 x3 x4).2.1, y ∈ pc.1.set :=
  View.cover_of_tiledL (kernelRun1_A c i arg3 harg3 arg4 harg4 arg5 harg5 arg6 harg6 arg7 harg7 arg8 harg8 arg9 harg9 hc0 x0 x1 x2 x3 x4).2.1 S1x1.size (by sl_kernel_rfl) y
theorem cover1_B_5 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : ¬cond1_0 i) (x0 x1 : Vec F S128x128 .f32) (x2 x3 x4 : Vec F S1x128 .i32) (xo5 xo6 : Vec F S1x1 .f32) (y : S1x1.Idx) :
    ∃ pc ∈ (kernelRun1_B c i arg3 harg3 arg4 harg4 arg5 harg5 arg6 harg6 arg7 harg7 arg8 harg8 arg9 harg9 hc0 x0 x1 x2 x3 x4 xo5 xo6).1, y ∈ pc.1.set :=
  View.cover_of_tiledL (kernelRun1_B c i arg3 harg3 arg4 harg4 arg5 harg5 arg6 harg6 arg7 harg7 arg8 harg8 arg9 harg9 hc0 x0 x1 x2 x3 x4 xo5 xo6).1 S1x1.size (by sl_kernel_rfl) y
theorem cover1_B_6 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : ¬cond1_0 i) (x0 x1 : Vec F S128x128 .f32) (x2 x3 x4 : Vec F S1x128 .i32) (xo5 xo6 : Vec F S1x1 .f32) (y : S1x1.Idx) :
    ∃ pc ∈ (kernelRun1_B c i arg3 harg3 arg4 harg4 arg5 harg5 arg6 harg6 arg7 harg7 arg8 harg8 arg9 harg9 hc0 x0 x1 x2 x3 x4 xo5 xo6).2.1, y ∈ pc.1.set :=
  View.cover_of_tiledL (kernelRun1_B c i arg3 harg3 arg4 harg4 arg5 harg5 arg6 harg6 arg7 harg7 arg8 harg8 arg9 harg9 hc0 x0 x1 x2 x3 x4 xo5 xo6).2.1 S1x1.size (by sl_kernel_rfl) y

/-- What the first point leaves in the loss accumulator: its pieces read back. -/
def out1_A_5 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : cond1_0 i) (x0 x1 : Vec F S128x128 .f32) (x2 x3 x4 : Vec F S1x128 .i32) : Vec F S1x1 .f32 :=
  VO1_5.read (Elt F) (VO1_5.writes (Elt F) VO1_5.junk (kernelRun1_A c i arg3 harg3 arg4 harg4 arg5 harg5 arg6 harg6 arg7 harg7 arg8 harg8 arg9 harg9 hc0 x0 x1 x2 x3 x4).1)
/-- What the first point leaves in the count accumulator. -/
def out1_A_6 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : cond1_0 i) (x0 x1 : Vec F S128x128 .f32) (x2 x3 x4 : Vec F S1x128 .i32) : Vec F S1x1 .f32 :=
  VO1_6.read (Elt F) (VO1_6.writes (Elt F) VO1_6.junk (kernelRun1_A c i arg3 harg3 arg4 harg4 arg5 harg5 arg6 harg6 arg7 harg7 arg8 harg8 arg9 harg9 hc0 x0 x1 x2 x3 x4).2.1)
/-- What a later point leaves in the loss accumulator, over what the point before left in both. -/
def out1_B_5 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : ¬cond1_0 i) (x0 x1 : Vec F S128x128 .f32) (x2 x3 x4 : Vec F S1x128 .i32) (xo5 xo6 : Vec F S1x1 .f32) : Vec F S1x1 .f32 :=
  VO1_5.read (Elt F) (VO1_5.writes (Elt F) VO1_5.junk (kernelRun1_B c i arg3 harg3 arg4 harg4 arg5 harg5 arg6 harg6 arg7 harg7 arg8 harg8 arg9 harg9 hc0 x0 x1 x2 x3 x4 xo5 xo6).1)
/-- What a later point leaves in the count accumulator. -/
def out1_B_6 (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : ¬cond1_0 i) (x0 x1 : Vec F S128x128 .f32) (x2 x3 x4 : Vec F S1x128 .i32) (xo5 xo6 : Vec F S1x1 .f32) : Vec F S1x1 .f32 :=
  VO1_6.read (Elt F) (VO1_6.writes (Elt F) VO1_6.junk (kernelRun1_B c i arg3 harg3 arg4 harg4 arg5 harg5 arg6 harg6 arg7 harg7 arg8 harg8 arg9 harg9 hc0 x0 x1 x2 x3 x4 xo5 xo6).2.1)

/-! ## The accumulation -/

/-- What the two accumulators (loss, count) hold after the body at position `n`: the first point's contents at 0, and at `n + 1`
    the later-point contents over what this leaves at `n`. -/
def outsAt1 (c : Dev nD) : (n : ℕ) → n < cfg1.N → Vec F S1x1 .f32 × Vec F S1x1 .f32
  | 0, hn =>
    (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩),
     out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => Nat.succ_ne_zero n ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
        (outsAt1 c n (Nat.lt_of_succ_lt hn)).1 (outsAt1 c n (Nat.lt_of_succ_lt hn)).2,
     out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => Nat.succ_ne_zero n ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
        (outsAt1 c n (Nat.lt_of_succ_lt hn)).1 (outsAt1 c n (Nat.lt_of_succ_lt hn)).2)

/-- At the first point: the reset-and-add contents. -/
theorem outsAt1_A (c : Dev nD) (t : Fin cfg1.N) (h0 : t.val = 0) :
    outsAt1 V c t.val t.isLt =
      (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t),
       out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)) := by
  obtain ⟨n, hn⟩ := t
  cases n with
  | zero => exact rfl
  | succ n => exact absurd h0 (Nat.succ_ne_zero n)

/-- At a later point: the add contents, over what the point before left. -/
theorem outsAt1_B (c : Dev nD) (t : Fin cfg1.N) (h0 : ¬t.val = 0) :
    outsAt1 V c t.val t.isLt =
      (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t)
          (outsAt1 V c (t.val - 1) (Nat.lt_of_le_of_lt (Nat.sub_le _ _) t.isLt)).1 (outsAt1 V c (t.val - 1) (Nat.lt_of_le_of_lt (Nat.sub_le _ _) t.isLt)).2,
       out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t)
          (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 1 on core `c`: the arrays as the region finds them; after the body each input's buffer at its block
    and the two outputs' at the accumulation; the invariant is the scoped rest and the generator register; nothing owed. The
    distance array is read through two windows and the type-id array through three: each window holds a share of its array,
    the shares of one array composing to the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2
  Φ _ := Pipeline.ΦA spec1 c
  q w := match w with
    | ⟨0, _⟩ => fullShare.left
    | ⟨1, _⟩ => fullShare.right
    | ⟨2, _⟩ => fullShare.left
    | ⟨3, _⟩ => fullShare.right.left
    | ⟨4, _⟩ => fullShare.right.right
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- At a later point the loss accumulator's buffer holds what the body left at the point before: the point is not the first and
    the buffer was not written back between (only the last point writes back). -/
theorem before1_5_B (c : Dev nD) (t : Fin cfg1.N) (h0 : ¬t.val = 0) (d) :
    (dat1 V c).before 5 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 5 rfl t h0 (Bool.eq_false_iff.mpr fun h => by have := (flush1_5 _).mp h; dsimp only at this; omega)
    (fun _ => rfl) (fun _ _ => rfl)]
  dsimp only [dat1]
theorem before1_6_B (c : Dev nD) (t : Fin cfg1.N) (h0 : ¬t.val = 0) (d) :
    (dat1 V c).before 6 t d = (outsAt1 V c (t.val - 1) (Nat.lt_of_le_of_lt (Nat.sub_le _ _) t.isLt)).2 := by
  have hN : t.val < 64 := lt_of_lt_of_eq t.isLt (show cfg1.N = 64 from N_1)
  rw [Dat.before_out_kept _ 6 rfl t h0 (Bool.eq_false_iff.mpr fun h => by have := (flush1_6 _).mp h; dsimp only at this; omega)
    (fun _ => rfl) (fun _ _ => rfl)]
  dsimp only [dat1]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1600000 in
/-- The body at any point: the inputs' buffers hold their blocks; at the first point the reset-and-add run applies, at a later one
    the add run over what the point before left; the invariant passes through unread and nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  by_cases h0 : t.val = 0
  · rw [outsAt1_A V c t h0]
    dsimp only
    unfold out1_A_5 out1_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ ((hcond1_0 t).mpr h0) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_A_5 c _ _ _ _ _ _ _ _ _ _ _ _ _ _ _ _ _ _ _ _ _)
    · unfold owns; iexists _; isplitr
      swap; · iexact H6
      ipureintro; exact View.read_writes_of_cover _ _ _ _ _ (cover1_A_6 c _ _ _ _ _ _ _ _ _ _ _ _ _ _ _ _ _ _ _ _ _)
  · rw [outsAt1_B V c t h0]
    dsimp only
    simp only [before1_5_B V c t h0, before1_6_B V c t h0]
    unfold out1_B_5 out1_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) (iblk1 V c 4 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_B_5 c _ _ _ _ _ _ _ _ _ _ _ _ _ _ _ _ _ _ _ _ _ _ _)
    · unfold owns; iexists _; isplitr
      swap; · iexact H6
      ipureintro; exact View.read_writes_of_cover _ _ _ _ _ (cover1_B_6 c _ _ _ _ _ _ _ _ _ _ _ _ _ _ _ _ _ _ _ _ _ _ _)

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Share.lean ====
/-
  Region 1's arrays at its entry and exit. The distance array is read through two windows and the type-id array through three,
  so the core's hold on each is split among its windows at entry (shares composing to the full share) and rejoined at exit, where
  every window of one array still holds the entry contents (an input array is never written); the two outputs are held outright
  and leave at what the write-backs left.
-/
import proofs.«430113_j6038724018541_3_alg».proof.Proof.KI.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four distinct buffers behind region 1's seven windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0) ↦{fullShare} W main_v0) ∗ (((c : Thread nD τ).loc main_v1) ↦{fullShare} W main_v1)
          ∗ (((c : Thread nD τ).loc main_v2_0) ↦{fullShare} W main_v2_0) ∗ (((c : Thread nD τ).loc main_v2_1) ↦{fullShare} W main_v2_1)) := by
  unfold Pipeline.arrBufs
  exact bigSep_eq_bigSepL_of_eq [main_v0, main_v1, main_v2_0, main_v2_1] (by decide) (by decide) _

/-- The seven windows' holds on their arrays, one by one, each at its share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare.left} G 2) ∗ (((c : Thread nD τ).loc main_v1) ↦{fullShare.right.left} G 3)
          ∗ (((c : Thread nD τ).loc main_v1) ↦{fullShare.right.right} G 4)
          ∗ (((c : Thread nD τ).loc main_v2_0) ↦{fullShare} G 5) ∗ (((c : Thread nD τ).loc main_v2_1) ↦{fullShare} G 6)) := by
  unfold Dat.arrays
  rw [bigSep_W1]
  rw [(arr_whole1 0).set_eq_univ, (arr_whole1 2).set_eq_univ, (arr_whole1 5).set_eq_univ, (arr_whole1 6).set_eq_univ]
  rfl

/-- ENTRY: the core's unscoped buffers at the entry contents are region 1's arrays, each window at its share, and the rest. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  rw [show (Pipeline.arrBufs (cfgs 1).spec c (V c) : sProp 𝕄) = _ from arrBufs1_eq c (V c), arrays1_eq]
  iintro ⟨H0, H1, H5, H6⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  ihave H1r' := (pointsTo_share (PosShare.mem_left_op_right fullShare.right)).1 $$ H1r
  icases H1r' with ⟨H1rl, H1rr⟩
  isplitl [H0l]; · iexact H0l
  isplitl [H0r]; · iexact H0r
  isplitl [H1l]; · iexact H1l
  isplitl [H1rl]; · iexact H1rl
  isplitl [H1rr]; · iexact H1rr
  isplitl [H5]; · iexact H5
  iexact H6

/-- EXIT: region 1's arrays at their final contents and the rest are the core's unscoped buffers at any valuation that has the
    two outputs at what the write-backs left and agrees with the entry contents elsewhere. -/
theorem exit1 (c : Dev nD) (V' : (b : Ref sig .tc) → Buf (Elt F) ((c : Thread nD τ).loc b))
    (h5 : (dat1 V c).arrAt 5 cfg1.N = V' main_v2_0) (h6 : (dat1 V c).arrAt 6 cfg1.N = V' main_v2_1)
    (hrest : ∀ b, b ≠ main_v2_0 → b ≠ main_v2_1 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs 1 winFacts₀1.arr_unscoped c V']
  refine sep_mono ?_ (Entails.of_eq ?_)
  · rw [show (Pipeline.arrBufs (cfgs 1).spec c V' : sProp 𝕄) = _ from arrBufs1_eq c V', arrays1_eq]
    rw [show (dat1 V c).arrAt 0 cfg1.N = V c main_v0 from ((dat1 V c).arrAt_in 0 rfl _).trans (A_eq1 V c 0),
      show (dat1 V c).arrAt 1 cfg1.N = V c main_v0 from ((dat1 V c).arrAt_in 1 rfl _).trans (A_eq1 V c 1),
      show (dat1 V c).arrAt 2 cfg1.N = V c main_v1 from ((dat1 V c).arrAt_in 2 rfl _).trans (A_eq1 V c 2),
      show (dat1 V c).arrAt 3 cfg1.N = V c main_v1 from ((dat1 V c).arrAt_in 3 rfl _).trans (A_eq1 V c 3),
      show (dat1 V c).arrAt 4 cfg1.N = V c main_v1 from ((dat1 V c).arrAt_in 4 rfl _).trans (A_eq1 V c 4),
      h5, h6, hrest main_v0 (by decide) (by decide), hrest main_v1 (by decide) (by decide)]
    iintro ⟨H0l, H0r, H1l, H1rl, H1rr, H5, H6⟩
    isplitl [H0l H0r]
    · iapply (pointsTo_share (PosShare.mem_left_op_right fullShare)).2
      isplitl [H0l] <;> iassumption
    isplitl [H1l H1rl H1rr]
    · iapply (pointsTo_share (PosShare.mem_left_op_right fullShare)).2
      isplitl [H1l]; · iexact H1l
      iapply (pointsTo_share (PosShare.mem_left_op_right fullShare.right)).2
      isplitl [H1rl] <;> iassumption
    isplitl [H5]; · iexact H5
    iexact H6
  · unfold Pipeline.unscopedRest
    refine bigSep_congr fun b hb => ?_
    have hb' := (Finset.mem_sdiff.mp hb).2
    rw [hrest b (fun e => hb' (e ▸ Finset.mem_image.mpr ⟨5, Finset.mem_univ _, rfl⟩)) (fun e => hb' (e ▸ Finset.mem_image.mpr ⟨6, Finset.mem_univ _, rfl⟩))]

end Cert.KernelIdeal.Hand

end
-- ==== Proof.KI.Run.lean ====
/-
  The run of @main: region 0 (the distance kernel), the reshape of the type ids, region 1 (the triplet kernel), and the two
  reshapes and the division. The core's unscoped buffers are tracked at a valuation through the four items: as launched; with
  the distance array at what region 0's write-back leaves; after the reshape; with the two accumulators' arrays at what region 1's
  last write-backs leave; after the closing host operations. Every weakly fair execution terminates, and the final memory holds
  the result buffer at the last valuation and both arguments as launched.
-/
import proofs.«430113_j6038724018541_3_alg».proof.Proof.KI.Share
import proofs.«430113_j6038724018541_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 (c : Dev nD) : Valuation τ sig (Elt F) := fun b => m (c, b)
/-- The same read at the TensorCore's references: what region 0's proof data take. -/
abbrev U0 : (c : Dev nD) → (b : Ref sig .tc) → Buf (Elt F) ((c : Thread nD τ).loc b) := fun c b => W0 m c b
/-- After region 0: the distance array at what its write-back leaves, every other buffer as launched. -/
def W1 (c : Dev nD) : Valuation τ sig (Elt F) := Function.update (W0 m c) main_v0 ((dat0 (U0 m) c).arrAt 1 cfg0.N)
/-- After the reshape of the type ids: region 1's entry. -/
abbrev W2 (c : Dev nD) : Valuation τ sig (Elt F) := StableHlo.after hostOps1 (W1 m c)
abbrev U2 : (c : Dev nD) → (b : Ref sig .tc) → Buf (Elt F) ((c : Thread nD τ).loc b) := fun c b => W2 m c b
/-- After region 1: the two accumulators' arrays at what the last write-backs leave, every other buffer as entered. -/
def W3 (c : Dev nD) : Valuation τ sig (Elt F) :=
  Function.update (Function.update (W2 m c) main_v2_0 ((dat1 (U2 m) c).arrAt 5 cfg1.N)) main_v2_1 ((dat1 (U2 m) c).arrAt 6 cfg1.N)
/-- After the closing host operations. -/
abbrev W4 (c : Dev nD) : Valuation τ sig (Elt F) := StableHlo.after hostOps2 (W3 m c)

theorem W1_main_v0 (c : Dev nD) : W1 m c main_v0 = (dat0 (U0 m) c).arrAt 1 cfg0.N := by
  unfold W1; exact Function.update_self ..
theorem W1_of_ne (c : Dev nD) (r : Ref sig .tc) (h : r ≠ main_v0) : W1 m c r = W0 m c r := by
  unfold W1; exact Function.update_of_ne (StableHlo.devRef_ne_of_ne h) ..
theorem W3_main_v2_0 (c : Dev nD) : W3 m c main_v2_0 = (dat1 (U2 m) c).arrAt 5 cfg1.N := by
  unfold W3; rw [Function.update_of_ne (StableHlo.devRef_ne_of_ne (by decide : main_v2_0 ≠ main_v2_1))]; exact Function.update_self ..
theorem W3_main_v2_1 (c : Dev nD) : W3 m c main_v2_1 = (dat1 (U2 m) c).arrAt 6 cfg1.N := by
  unfold W3; exact Function.update_self ..
theorem W3_of_ne (c : Dev nD) (r : Ref sig .tc) (h0 : r ≠ main_v2_0) (h1 : r ≠ main_v2_1) : W3 m c r = W2 m c r := by
  unfold W3; rw [Function.update_of_ne (StableHlo.devRef_ne_of_ne h1), Function.update_of_ne (StableHlo.devRef_ne_of_ne h0)]

/-- No item writes an argument: each reaches the end as launched. -/
theorem W4_of_arg (c : Dev nD) (r : Ref sig .tc) (h2 : r ∉ hostOps2_W) (h30 : r ≠ main_v2_0) (h31 : r ≠ main_v2_1) (h1 : r ∉ hostOps1_W) (h0 : r ≠ main_v0) :
    W4 m c r = m ((c : Thread nD τ).loc r) :=
  (StableHlo.after_of_writes_sub hostOps2 _ hostOps2_writes h2).trans <| (W3_of_ne m c r h30 h31).trans <|
    (StableHlo.after_of_writes_sub hostOps1 _ hostOps1_writes h1).trans <| (W1_of_ne m c r h0).trans rfl
theorem W4_main_arg0 (c : Dev nD) : W4 m c main_arg0 = m ((c : Thread nD τ).loc main_arg0) :=
  W4_of_arg m c main_arg0 (by decide) (by decide) (by decide) (by decide) (by decide)
theorem W4_main_arg1 (c : Dev nD) : W4 m c main_arg1 = m ((c : Thread nD τ).loc main_arg1) :=
  W4_of_arg m c main_arg1 (by decide) (by decide) (by decide) (by decide) (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (W4 m c) ∗ ∃ r, prngReg c r)

/-! ## The regions as segments -/

theorem hF0 (c : Dev nD) (w : Fin cfg0.W) : (dat0 (U0 m) c).arrAt w cfg0.N = (fun b : Ref sig .tc => W1 m c b) (Pipeline.arrRef spec0 w) := by
  match w with
  | ⟨0, _⟩ => exact ((dat0 (U0 m) c).arrAt_in 0 rfl _).trans ((A_eq0 (U0 m) c 0).trans (W1_of_ne m c main_arg1 (by decide)).symm)
  | ⟨1, _⟩ => exact (W1_main_v0 m c).symm
theorem hrest0 (c : Dev nD) : ∀ b : Ref sig .tc, b ∉ Finset.univ.image (Pipeline.arrRef spec0) → W1 m c b = W0 m c b :=
  fun b hb => W1_of_ne m c b fun e => hb (Finset.mem_image.mpr ⟨1, Finset.mem_univ _, e.symm⟩)

set_option backward.isDefEq.respectTransparency.types false in
/-- Region 0 over the thread state: entered from every unscoped buffer as launched, left with the distance array written. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (fun b : Ref sig .tc => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer after the reshape, left with the two accumulators'
    arrays written. Its shared arrays are split among its windows at entry and rejoined at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit : (unscopedBufs c (U2 m c) : sProp 𝕄)
        ⊢ iprop((pdats m 1 c).arrays ((pdats m 1 c).arrAt · 0) ∗ Pipeline.unscopedRest spec1 c (U2 m c)) := entry1 (U2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (U2 m c))
        ⊢ (unscopedBufs c (fun b : Ref sig .tc => W3 m c b) : sProp 𝕄) :=
      exit1 (U2 m) c (fun b : Ref sig .tc => W3 m c b) (W3_main_v2_0 m c).symm (W3_main_v2_1 m c).symm (fun b h0 h1 => W3_of_ne m c b h0 h1)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order. -/
abbrev segsK : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
/-- @main is the run of the segments. -/
theorem main_run (c : Dev nD) : main (F := F) c = Pipeline.Seg.run (segsK m) := (main_chain c).trans (by chain_rfl)

set_option backward.isDefEq.respectTransparency.types false in
/-- THE RUN: from any memory with zero counters every weakly fair execution of @main terminates, nothing faulting, and every final
    state holds the result buffer at the last valuation and both arguments as launched. -/
theorem run_main : θ_run defs (onTc (τ := τ) (main (F := F))) ⟨m, fun _ => 0, ρ⟩ (fun r => ∀ c : Dev nD,
      r.2.mem ((c.tc : Thread nD τ).loc main_v5) = W4 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segsK m)
    (fun c Q => by rw [main_run m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v5 (by decide)),
       (h c _ (mem_uc main_arg0 (by decide))).trans (W4_main_arg0 m c),
       (h c _ (mem_uc main_arg1 (by decide))).trans (W4_main_arg1 m c)⟩)

end Cert.KernelIdeal.Hand

end
-- ==== Proof.KI.Pieces.lean ====
/-
  The run-found contents read back as payload terms. At the first point the loss accumulator ends at the add payload over the
  reset value, at a later point over what the point before left; likewise the count accumulator. And the final arrays: the
  distance array after region 0 is the distance payload of the embeddings; each accumulator's array after region 1 is what its
  buffer held after the last point (the one write-back).
-/
import proofs.«430113_j6038724018541_3_alg».proof.Proof.KI.Reg1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The offsets of a whole-block rectangle are zero on both axes. -/
private theorem hz2 : (![0, 0] : Fin 2 → Nat) = fun _ => 0 := funext fun a => by fin_cases a <;> rfl

/- Each accumulator's buffer is written through its whole [1, 1] block, so what it holds after the body is the payload of the
   last store; the loads of the input blocks read the blocks, and a load of an accumulator after its reset reads the reset value. -/
theorem out1_A_5_eq (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : cond1_0 i) (x0 x1 : Vec F S128x128 .f32) (x2 x3 x4 : Vec F S1x128 .i32) :
    out1_A_5 c i arg3 harg3 arg4 harg4 arg5 harg5 arg6 harg6 arg7 harg7 arg8 harg8 arg9 harg9 hc0 x0 x1 x2 x3 x4 = k1_pay1 (k1_pay5 x2 x3 x4) (k1_pay6 x1) (k1_pay7 x0) (k1_pay3 (F := F)) := by
  unfold out1_A_5
  rw [View.read_writes_eq_canon _ _ _ (cover1_A_5 c i arg3 harg3 arg4 harg4 arg5 harg5 arg6 harg6 arg7 harg7 arg8 harg8 arg9 harg9 hc0 x0 x1 x2 x3 x4)]
  unfold kernelRun1_A
  dsimp only
  sl_unfold_words
  rw [View.canon_cons_unit_zero (S := S1x1) hz2]
  simp only [View.readAt_eq_ld, harg3.read_unread, harg4.read_unread, harg5.read_unread, harg6.read_unread, harg7.read_unread,
    View.ld_unit_zero (S := S128x128) hz2, View.ld_unit_zero (S := S1x128) hz2, View.ld_unit_zero (S := S1x1) hz2,
    View.readCov_unit_zero (S := S1x1) _ hz2]

theorem out1_A_6_eq (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : cond1_0 i) (x0 x1 : Vec F S128x128 .f32) (x2 x3 x4 : Vec F S1x128 .i32) :
    out1_A_6 c i arg3 harg3 arg4 harg4 arg5 harg5 arg6 harg6 arg7 harg7 arg8 harg8 arg9 harg9 hc0 x0 x1 x2 x3 x4 = k1_pay2 (k1_pay5 x2 x3 x4) (k1_pay4 (F := F)) := by
  unfold out1_A_6
  rw [View.read_writes_eq_canon _ _ _ (cover1_A_6 c i arg3 harg3 arg4 harg4 arg5 harg5 arg6 harg6 arg7 harg7 arg8 harg8 arg9 harg9 hc0 x0 x1 x2 x3 x4)]
  unfold kernelRun1_A
  dsimp only
  sl_unfold_words
  rw [View.canon_cons_unit_zero (S := S1x1) hz2]
  simp only [View.readAt_eq_ld, harg3.read_unread, harg4.read_unread, harg5.read_unread, harg6.read_unread, harg7.read_unread,
    View.ld_unit_zero (S := S128x128) hz2, View.ld_unit_zero (S := S1x128) hz2, View.ld_unit_zero (S := S1x1) hz2,
    View.readCov_unit_zero (S := S1x1) _ hz2]

theorem out1_B_5_eq (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : ¬cond1_0 i) (x0 x1 : Vec F S128x128 .f32) (x2 x3 x4 : Vec F S1x128 .i32) (xo5 xo6 : Vec F S1x1 .f32) :
    out1_B_5 c i arg3 harg3 arg4 harg4 arg5 harg5 arg6 harg6 arg7 harg7 arg8 harg8 arg9 harg9 hc0 x0 x1 x2 x3 x4 xo5 xo6 = k1_pay1 (k1_pay5 x2 x3 x4) (k1_pay6 x1) (k1_pay7 x0) xo5 := by
  unfold out1_B_5
  rw [View.read_writes_eq_canon _ _ _ (cover1_B_5 c i arg3 harg3 arg4 harg4 arg5 harg5 arg6 harg6 arg7 harg7 arg8 harg8 arg9 harg9 hc0 x0 x1 x2 x3 x4 xo5 xo6)]
  unfold kernelRun1_B
  dsimp only
  sl_unfold_words
  rw [View.canon_unit_zero (S := S1x1) hz2]
  simp only [View.readAt_eq_ld, harg3.read_unread, harg4.read_unread, harg5.read_unread, harg6.read_unread, harg7.read_unread, harg8.read_unread, harg9.read_unread,
    View.ld_unit_zero (S := S128x128) hz2, View.ld_unit_zero (S := S1x128) hz2, View.ld_unit_zero (S := S1x1) hz2,
    View.readCov_unit_zero (S := S1x1) _ hz2]

theorem out1_B_6_eq (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S1x128 .i32) (harg5 : arg5.IsWhole) (arg6 : Memref sig .tc .vmem S1x128 .i32) (harg6 : arg6.IsWhole)
    (arg7 : Memref sig .tc .vmem S1x128 .i32) (harg7 : arg7.IsWhole) (arg8 : Memref sig .tc .vmem S1x1 .f32) (harg8 : arg8.IsWhole)
    (arg9 : Memref sig .tc .vmem S1x1 .f32) (harg9 : arg9.IsWhole) (hc0 : ¬cond1_0 i) (x0 x1 : Vec F S128x128 .f32) (x2 x3 x4 : Vec F S1x128 .i32) (xo5 xo6 : Vec F S1x1 .f32) :
    out1_B_6 c i arg3 harg3 arg4 harg4 arg5 harg5 arg6 harg6 arg7 harg7 arg8 harg8 arg9 harg9 hc0 x0 x1 x2 x3 x4 xo5 xo6 = k1_pay2 (k1_pay5 x2 x3 x4) xo6 := by
  unfold out1_B_6
  rw [View.read_writes_eq_canon _ _ _ (cover1_B_6 c i arg3 harg3 arg4 harg4 arg5 harg5 arg6 harg6 arg7 harg7 arg8 harg8 arg9 harg9 hc0 x0 x1 x2 x3 x4 xo5 xo6)]
  unfold kernelRun1_B
  dsimp only
  sl_unfold_words
  rw [View.canon_unit_zero (S := S1x1) hz2]
  simp only [View.readAt_eq_ld, harg3.read_unread, harg4.read_unread, harg5.read_unread, harg6.read_unread, harg7.read_unread, harg8.read_unread, harg9.read_unread,
    View.ld_unit_zero (S := S128x128) hz2, View.ld_unit_zero (S := S1x128) hz2, View.ld_unit_zero (S := S1x1) hz2,
    View.readCov_unit_zero (S := S1x1) _ hz2]

/-- Region 0 has one grid point, and there each window's one block starts at offset zero on both axes. -/
private theorem hoff0_0 : (fun a => win0_0.index t0_0 a * main_arg1.ty.shape.size a) = fun _ => 0 :=
  funext fun a => by fin_cases a <;> decide
private theorem hoff0_1 : (fun a => win0_1.index t0_0 a * main_v0.ty.shape.size a) = fun _ => 0 :=
  funext fun a => by fin_cases a <;> decide

/-- The input window's one block is the whole embeddings array: a [512, 768] block at zero offsets of a [512, 768] array. -/
private theorem iblk0_whole (c : Dev nD) : iblk0 V c 0 t0_0 = V c main_arg1 := by
  unfold iblk0
  exact Memref.read_access_unit_zero (Elt F) main_arg1 hoff0_0 (fun a => by rw [congrFun hoff0_0 a]; simp) (V c main_arg1)

/-- What the one point writes back is the block of the distance payload of the embeddings array: the body's one store covers the
    output block with the payload of the whole input block, and the output block is the whole [512, 512] array. -/
private theorem flushed0_1_eq (c : Dev nD) (t : Fin cfg0.N) (hf : (cfg0.win 1).flush t = true) :
    (dat0 V c).flushed 1 t = ((cfg0.win 1).blk t).view.read (Elt F) (k0_pay1 (V c main_arg1)) := by
  obtain rfl : t = t0_0 := fin_N0 t
  show (cfg0.win 1).cut (grid0.coords t0_0) ((dat0 V c).after 1 t0_0) = _
  rw [after0_1]
  unfold out0_1
  rw [View.canon_unit_zero (S := S512x512) hz2, View.ld_unit_zero (S := S512x768) hz2, iblk0_whole]
  exact (Memref.read_access_unit_zero (Elt F) main_v0 hoff0_1 (fun a => by rw [congrFun hoff0_1 a]; simp) (k0_pay1 (V c main_arg1))).symm

/-- After region 0 the distance array holds the distance payload of the embeddings array as the region found it: every index of
    the array lies in the one point's block, rows and columns 0 to 511. -/
theorem arrAt0_1 (c : Dev nD) : (dat0 V c).arrAt 1 cfg0.N = k0_pay1 (V c main_arg1) :=
  (dat0 V c).arrAt_eq_of_cover 1 (k0_pay1 (V c main_arg1)) (flushed0_1_eq V c) fun i =>
    ⟨t0_0, flush0_1 t0_0, by
      show i ∈ ((View.whole main_v0).slice (win0_1.rect t0_0)).set
      rw [View.set_slice_whole, Rect.mem_set_unit]
      intro a
      have h0 : (i 0 : Nat) < 512 := (i 0).isLt
      have h1 : (i 1 : Nat) < 512 := (i 1).isLt
      match a with
      | ⟨0, _⟩ =>
        show win0_1.index t0_0 0 * win0_1.size 0 ≤ (i 0 : Nat) ∧ (i 0 : Nat) < win0_1.index t0_0 0 * win0_1.size 0 + win0_1.xsize (grid0.coords t0_0) 0
        rw [show win0_1.index t0_0 0 * win0_1.size 0 = 0 from by decide +kernel, show win0_1.xsize (grid0.coords t0_0) 0 = 512 from by decide +kernel]; omega
      | ⟨1, _⟩ =>
        show win0_1.index t0_0 1 * win0_1.size 1 ≤ (i 1 : Nat) ∧ (i 1 : Nat) < win0_1.index t0_0 1 * win0_1.size 1 + win0_1.xsize (grid0.coords t0_0) 1
        rw [show win0_1.index t0_0 1 * win0_1.size 1 = 0 from by decide +kernel, show win0_1.xsize (grid0.coords t0_0) 1 = 512 from by decide +kernel]; omega⟩

/-- The last grid point, the one point that writes the accumulators back. -/
def tLast : Fin cfg1.N := ⟨63, by decide⟩

theorem last_of_flush5 (t : Fin cfg1.N) (hf : (cfg1.win 5).flush t = true) : t = tLast := by
  have hN : t.val < 64 := lt_of_lt_of_eq t.isLt (show cfg1.N = 64 from N_1)
  have := (flush1_5 t).mp hf
  exact Fin.ext (by show t.val = 63; omega)
theorem last_of_flush6 (t : Fin cfg1.N) (hf : (cfg1.win 6).flush t = true) : t = tLast := by
  have hN : t.val < 64 := lt_of_lt_of_eq t.isLt (show cfg1.N = 64 from N_1)
  have := (flush1_6 t).mp hf
  exact Fin.ext (by show t.val = 63; omega)

/-- The loss accumulator's one block is its whole [1, 1] array, so after the one write-back the array holds what the buffer
    held after the last point. -/
theorem arrAt1_5 (c : Dev nD) : (dat1 V c).arrAt 5 cfg1.N = (outsAt1 V c 63 (by decide)).1 := by
  have hz : (fun a => win1_5.index tLast a * main_v2_0.ty.shape.size a) = fun _ => 0 := funext fun a => by fin_cases a <;> decide
  refine (dat1 V c).arrAt_eq_of_cover 5 _ (fun t hf => ?_) (fun i => ⟨tLast, (flush1_5 tLast).mpr (by decide), ?_⟩)
  · obtain rfl := last_of_flush5 t hf
    show (cfg1.win 5).cut (grid1.coords tLast) ((dat1 V c).after 5 tLast) = _
    rw [after1_5]
    exact (Memref.read_access_unit_zero (Elt F) main_v2_0 hz (fun a => by rw [congrFun hz a]; simp) _).symm
  · show i ∈ ((View.whole main_v2_0).slice (win1_5.rect tLast)).set
    rw [View.set_slice_whole, Rect.mem_set_unit]
    intro a
    have h0 : (i 0 : Nat) < 1 := (i 0).isLt
    have h1 : (i 1 : Nat) < 1 := (i 1).isLt
    match a with
    | ⟨0, _⟩ => show win1_5.index tLast 0 * win1_5.size 0 ≤ (i 0 : Nat) ∧ (i 0 : Nat) < win1_5.index tLast 0 * win1_5.size 0 + win1_5.xsize (grid1.coords tLast) 0
                rw [show win1_5.index tLast 0 * win1_5.size 0 = 0 from by decide +kernel, show win1_5.xsize (grid1.coords tLast) 0 = 1 from by decide +kernel]; omega
    | ⟨1, _⟩ => show win1_5.index tLast 1 * win1_5.size 1 ≤ (i 1 : Nat) ∧ (i 1 : Nat) < win1_5.index tLast 1 * win1_5.size 1 + win1_5.xsize (grid1.coords tLast) 1
                rw [show win1_5.index tLast 1 * win1_5.size 1 = 0 from by decide +kernel, show win1_5.xsize (grid1.coords tLast) 1 = 1 from by decide +kernel]; omega

/-- Likewise the count accumulator's. -/
theorem arrAt1_6 (c : Dev nD) : (dat1 V c).arrAt 6 cfg1.N = (outsAt1 V c 63 (by decide)).2 := by
  have hz : (fun a => win1_6.index tLast a * main_v2_1.ty.shape.size a) = fun _ => 0 := funext fun a => by fin_cases a <;> decide
  refine (dat1 V c).arrAt_eq_of_cover 6 _ (fun t hf => ?_) (fun i => ⟨tLast, (flush1_6 tLast).mpr (by decide), ?_⟩)
  · obtain rfl := last_of_flush6 t hf
    show (cfg1.win 6).cut (grid1.coords tLast) ((dat1 V c).after 6 tLast) = _
    rw [after1_6]
    exact (Memref.read_access_unit_zero (Elt F) main_v2_1 hz (fun a => by rw [congrFun hz a]; simp) _).symm
  · show i ∈ ((View.whole main_v2_1).slice (win1_6.rect tLast)).set
    rw [View.set_slice_whole, Rect.mem_set_unit]
    intro a
    have h0 : (i 0 : Nat) < 1 := (i 0).isLt
    have h1 : (i 1 : Nat) < 1 := (i 1).isLt
    match a with
    | ⟨0, _⟩ => show win1_6.index tLast 0 * win1_6.size 0 ≤ (i 0 : Nat) ∧ (i 0 : Nat) < win1_6.index tLast 0 * win1_6.size 0 + win1_6.xsize (grid1.coords tLast) 0
                rw [show win1_6.index tLast 0 * win1_6.size 0 = 0 from by decide +kernel, show win1_6.xsize (grid1.coords tLast) 0 = 1 from by decide +kernel]; omega
    | ⟨1, _⟩ => show win1_6.index tLast 1 * win1_6.size 1 ≤ (i 1 : Nat) ∧ (i 1 : Nat) < win1_6.index tLast 1 * win1_6.size 1 + win1_6.xsize (grid1.coords tLast) 1
                rw [show win1_6.index tLast 1 * win1_6.size 1 = 0 from by decide +kernel, show win1_6.xsize (grid1.coords tLast) 1 = 1 from by decide +kernel]; omega

end Cert.KernelIdeal.Hand

end
-- ==== Proof.Spec.lean ====
/-
  The function both programs compute, written once over explicit coordinates.

  For embeddings `x : [512, 768]` and type ids `ty : [512]`:
    * `sqn x i`   = the squared norm of row `i` (the sum of its squares over the 768 columns, onto the zero word);
    * `gram x i j` = the inner product of rows `i` and `j`;
    * `sq x i j`   = max (sqn i + sqn j − 2 · gram i j, 0);
    * `dist x i j` = √sq where sq > 0 (the root taken of `sq` there and of 1 elsewhere), and 0 elsewhere: the pairwise distance;
    * `mask ty a p n` = 1 when `a` and `p` have one type and `a` and `n` different types, else 0;
    * `trip D ty a p n` = max ((D a p − D a n) · mask a p n + 1, 0);
    * the result = (Σ_{a,p,n} trip) / (Σ_{a,p,n} mask), the quotient the extended reals' own (`Ideal.div`).
  Float literals stay as the words the programs print; only the zero word is ever evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev T1 : Shape := ⟨1, ![512]⟩
abbrev X2 : Shape := ⟨2, ![512, 768]⟩
abbrev D2 : Shape := ⟨2, ![512, 512]⟩
abbrev S0 : Shape := ⟨0, ![]⟩

/-- The words the programs print. -/
abbrev zeroW : EReal := Ideal.ofBits .f32 0x00000000#32
abbrev oneW : EReal := Ideal.ofBits .f32 0x3F800000#32
abbrev twoW : EReal := Ideal.ofBits .f32 0x40000000#32

/-- Row `i`'s squared norm: the sum of the squares of its 768 entries, onto the zero word. -/
def sqn (x : X2.Idx → EReal) (i : Fin 512) : EReal := zeroW + ∑ k : Fin 768, x (ix2 i k) * x (ix2 i k)

/-- The inner product of rows `i` and `j`. -/
def gram (x : X2.Idx → EReal) (i j : Fin 512) : EReal := ∑ k : Fin 768, x (ix2 i k) * x (ix2 j k)

/-- The squared distance, clamped at zero. -/
def sq (x : X2.Idx → EReal) (i j : Fin 512) : EReal := max (sqn x i + sqn x j - twoW * gram x i j) zeroW

/-- The pairwise distance: the root where the squared distance is positive (taken of 1 elsewhere, and discarded), 0 elsewhere. -/
def dist (x : X2.Idx → EReal) (i j : Fin 512) : EReal :=
  Scalar.select (Ideal.cmp .ogt (sq x i j) zeroW)
    (Ideal.sqrt (Scalar.select (Ideal.cmp .ogt (sq x i j) zeroW) (sq x i j) oneW)) zeroW

/-- The distance matrix as an array. -/
def distArr (x : X2.Idx → EReal) : D2.Idx → EReal := fun j => dist x (j 0) (j 1)

/-- Entities `a` and `b` have one type. -/
abbrev same (ty : T1.Idx → BitVec 32) (a b : Fin 512) : Prop := ty (ix1 a) = ty (ix1 b)

/-- The triplet `(a, p, n)` is valid: `p` of `a`'s type, `n` of another. As an extended real, 1 or 0. -/
def mask (ty : T1.Idx → BitVec 32) (a p n : Fin 512) : EReal := if same ty a p ∧ ¬ same ty a n then 1 else 0

/-- One triplet's clamped term over a distance matrix `D`. -/
def trip (D : D2.Idx → EReal) (ty : T1.Idx → BitVec 32) (a p n : Fin 512) : EReal :=
  max ((D (ix2 a p) - D (ix2 a n)) * mask ty a p n + oneW) zeroW

/-- The sum of the clamped terms over all 512³ triplets. -/
def lossTotal (D : D2.Idx → EReal) (ty : T1.Idx → BitVec 32) : EReal := ∑ a : Fin 512, ∑ p : Fin 512, ∑ n : Fin 512, trip D ty a p n

/-- The number of valid triplets, as an extended real. -/
def validTotal (ty : T1.Idx → BitVec 32) : EReal := ∑ a : Fin 512, ∑ p : Fin 512, ∑ n : Fin 512, mask ty a p n

/-- The result: the rank-0 array holding the quotient. -/
def result (ty : T1.Idx → BitVec 32) (x : X2.Idx → EReal) : S0.Idx → EReal :=
  fun _ => Ideal.div (lossTotal (distArr x) ty) (validTotal ty)

end Cert.Spec

end
-- ==== Proof.TileSpec.lean ====
/-
  The same function tile by tile. The triplet cube [512]³ is cut into 4 × 4 × 4 tiles of 128³; tile (a', p', n') reads the
  distance blocks (a', p') and (a', n') and the type-id blocks a', p', n'. `tileLoss` and `tileValid` are one tile's clamped sum
  and its count of valid triplets, over the blocks alone; `blkD` and `blkT` cut the blocks out of the whole arrays.
-/
import proofs.«430113_j6038724018541_3_alg».proof.Proof.Spec

noncomputable section

namespace Cert.Spec

open Idealize.ShloMosaic Idealize.ShloMosaic.ValueIdx

abbrev B2 : Shape := ⟨2, ![128, 128]⟩
abbrev R2 : Shape := ⟨2, ![1, 128]⟩
abbrev U2 : Shape := ⟨2, ![1, 1]⟩
abbrev T2 : Shape := ⟨2, ![1, 512]⟩

/-- Entry `i` of block `b` of an axis of 512 cut into 4 blocks of 128. -/
def off (b : Fin 4) (i : Fin 128) : Fin 512 := ⟨b.val * 128 + i.val, by omega⟩

/-- Within a tile: row `i` and column `j` have one type, row `i` and depth `k` different types. 1 or 0. -/
def tmask (ta tp tn : R2.Idx → BitVec 32) (i j k : Fin 128) : EReal :=
  if ta (ix2 0 i) = tp (ix2 0 j) ∧ ¬ ta (ix2 0 i) = tn (ix2 0 k) then 1 else 0

/-- Within a tile: one triplet's clamped term. -/
def ttrip (dap dan : B2.Idx → EReal) (ta tp tn : R2.Idx → BitVec 32) (i j k : Fin 128) : EReal :=
  max ((dap (ix2 i j) - dan (ix2 i k)) * tmask ta tp tn i j k + oneW) zeroW

/-- One tile's clamped sum. -/
def tileLoss (dap dan : B2.Idx → EReal) (ta tp tn : R2.Idx → BitVec 32) : EReal :=
  ∑ i : Fin 128, ∑ j : Fin 128, ∑ k : Fin 128, ttrip dap dan ta tp tn i j k

/-- One tile's count of valid triplets. -/
def tileValid (ta tp tn : R2.Idx → BitVec 32) : EReal :=
  ∑ i : Fin 128, ∑ j : Fin 128, ∑ k : Fin 128, tmask ta tp tn i j k

/-- Block (r, c) of a [512, 512] array. -/
def blkD (D : D2.Idx → EReal) (r c : Fin 4) : B2.Idx → EReal :=
  fun y => D (ix2 (off r ⟨(y 0).val, (y 0).isLt⟩) (off c ⟨(y 1).val, (y 1).isLt⟩))

/-- Block `b` of the type ids laid out as one row [1, 512]. -/
def blkT (ty : T1.Idx → BitVec 32) (b : Fin 4) : R2.Idx → BitVec 32 :=
  fun y => ty (ix1 (off b ⟨(y 1).val, (y 1).isLt⟩))

end Cert.Spec

end
-- ==== Proof.KI.Blocks.lean ====
/-
  Region 1's input blocks in coordinates. Grid point `t` (row-major over 4 × 4 × 4) is the tile (t / 16, t / 4 % 4, t % 4); the
  two distance windows read blocks (a', p') and (a', n') of the [512, 512] distance array, the three type-id windows blocks a', p',
  n' of the [1, 512] row of type ids.
-/
import proofs.«430113_j6038724018541_3_alg».proof.Proof.KI.Reg1Defs
import proofs.«430113_j6038724018541_3_alg».proof.Proof.TileSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The tile coordinates of grid point `t`. -/
def gA (t : Fin cfg1.N) : Fin 4 := ⟨t.val / 16, by have h : t.val < 64 := lt_of_lt_of_eq t.isLt (show cfg1.N = 64 from N_1); omega⟩
def gP (t : Fin cfg1.N) : Fin 4 := ⟨t.val / 4 % 4, by omega⟩
def gN (t : Fin cfg1.N) : Fin 4 := ⟨t.val % 4, by omega⟩

/-- Block (r, c) of the distance array, entry by entry. -/
def dblk (D : S512x512.Idx → Elt F .f32) (r s : Fin 4) : S128x128.Idx → Elt F .f32 :=
  fun y => D (ix2 (Cert.Spec.off r ⟨(y 0).val, (y 0).isLt⟩) (Cert.Spec.off s ⟨(y 1).val, (y 1).isLt⟩))
/-- Block `b` of the row of type ids. -/
def tblk (T : S1x512.Idx → Elt F .i32) (b : Fin 4) : S1x128.Idx → Elt F .i32 :=
  fun y => T (ix2 0 (Cert.Spec.off b ⟨(y 1).val, (y 1).isLt⟩))

/-- The printed index maps of the five input windows, decided over the 64 grid points: the two distance windows sit at block
    (t / 16, t / 4 % 4) and (t / 16, t % 4), the three type-id windows at block 0 of the single row and t / 16, t / 4 % 4, t % 4
    along it. -/
theorem idx1_facts : ∀ t : Fin cfg1.N,
    win1_0.index t (0 : Fin 2) = t.val / 16 ∧ win1_0.index t (1 : Fin 2) = t.val / 4 % 4
    ∧ win1_1.index t (0 : Fin 2) = t.val / 16 ∧ win1_1.index t (1 : Fin 2) = t.val % 4
    ∧ win1_2.index t (0 : Fin 2) = 0 ∧ win1_2.index t (1 : Fin 2) = t.val / 16
    ∧ win1_3.index t (0 : Fin 2) = 0 ∧ win1_3.index t (1 : Fin 2) = t.val / 4 % 4
    ∧ win1_4.index t (0 : Fin 2) = 0 ∧ win1_4.index t (1 : Fin 2) = t.val % 4 :=
  (by decide +kernel : ∀ t : Fin grid1.N, _)

/-! Each window's block, entry by entry: the coordinate of entry `y` along an axis is (block index) · (block size) + (y's offset on that
    axis), and with the block indices above this is the coordinate `off` names. The row axis of the type ids has one entry, at 0. -/

theorem iblk1_0 (c : Dev nD) (t : Fin cfg1.N) : iblk1 V c 0 t = dblk (V c main_v0) (gA t) (gP t) := by
  obtain ⟨e0, e1, -⟩ := idx1_facts t
  funext y
  show V c main_v0 (((cfg1.win 0).blk t).view.emb y) = V c main_v0 (ix2 (Cert.Spec.off (gA t) ⟨(y 0).val, (y 0).isLt⟩) (Cert.Spec.off (gP t) ⟨(y 1).val, (y 1).isLt⟩))
  refine congrArg _ ?_
  funext a; apply Fin.ext
  match a with
  | ⟨0, _⟩ => show win1_0.index t (0 : Fin 2) * 128 + 1 * (y 0).val = (gA t).val * 128 + (y 0).val; rw [e0]; show _ = t.val / 16 * 128 + (y 0).val; omega
  | ⟨1, _⟩ => show win1_0.index t (1 : Fin 2) * 128 + 1 * (y 1).val = (gP t).val * 128 + (y 1).val; rw [e1]; show _ = t.val / 4 % 4 * 128 + (y 1).val; omega
theorem iblk1_1 (c : Dev nD) (t : Fin cfg1.N) : iblk1 V c 1 t = dblk (V c main_v0) (gA t) (gN t) := by
  obtain ⟨-, -, e0, e1, -⟩ := idx1_facts t
  funext y
  show V c main_v0 (((cfg1.win 1).blk t).view.emb y) = V c main_v0 (ix2 (Cert.Spec.off (gA t) ⟨(y 0).val, (y 0).isLt⟩) (Cert.Spec.off (gN t) ⟨(y 1).val, (y 1).isLt⟩))
  refine congrArg _ ?_
  funext a; apply Fin.ext
  match a with
  | ⟨0, _⟩ => show win1_1.index t (0 : Fin 2) * 128 + 1 * (y 0).val = (gA t).val * 128 + (y 0).val; rw [e0]; show _ = t.val / 16 * 128 + (y 0).val; omega
  | ⟨1, _⟩ => show win1_1.index t (1 : Fin 2) * 128 + 1 * (y 1).val = (gN t).val * 128 + (y 1).val; rw [e1]; show _ = t.val % 4 * 128 + (y 1).val; omega
theorem iblk1_2 (c : Dev nD) (t : Fin cfg1.N) : iblk1 V c 2 t = tblk (V c main_v1) (gA t) := by
  obtain ⟨-, -, -, -, e0, e1, -⟩ := idx1_facts t
  funext y
  show V c main_v1 (((cfg1.win 2).blk t).view.emb y) = V c main_v1 (ix2 0 (Cert.Spec.off (gA t) ⟨(y 1).val, (y 1).isLt⟩))
  refine congrArg _ ?_
  funext a; apply Fin.ext
  match a with
  | ⟨0, _⟩ => show win1_2.index t (0 : Fin 2) * 1 + 1 * (y 0).val = 0; rw [e0]; have hy : (y 0).val < 1 := (y 0).isLt; omega
  | ⟨1, _⟩ => show win1_2.index t (1 : Fin 2) * 128 + 1 * (y 1).val = (gA t).val * 128 + (y 1).val; rw [e1]; show _ = t.val / 16 * 128 + (y 1).val; omega
theorem iblk1_3 (c : Dev nD) (t : Fin cfg1.N) : iblk1 V c 3 t = tblk (V c main_v1) (gP t) := by
  obtain ⟨-, -, -, -, -, -, e0, e1, -⟩ := idx1_facts t
  funext y
  show V c main_v1 (((cfg1.win 3).blk t).view.emb y) = V c main_v1 (ix2 0 (Cert.Spec.off (gP t) ⟨(y 1).val, (y 1).isLt⟩))
  refine congrArg _ ?_
  funext a; apply Fin.ext
  match a with
  | ⟨0, _⟩ => show win1_3.index t (0 : Fin 2) * 1 + 1 * (y 0).val = 0; rw [e0]; have hy : (y 0).val < 1 := (y 0).isLt; omega
  | ⟨1, _⟩ => show win1_3.index t (1 : Fin 2) * 128 + 1 * (y 1).val = (gP t).val * 128 + (y 1).val; rw [e1]; show _ = t.val / 4 % 4 * 128 + (y 1).val; omega
theorem iblk1_4 (c : Dev nD) (t : Fin cfg1.N) : iblk1 V c 4 t = tblk (V c main_v1) (gN t) := by
  obtain ⟨-, -, -, -, -, -, -, -, e0, e1⟩ := idx1_facts t
  funext y
  show V c main_v1 (((cfg1.win 4).blk t).view.emb y) = V c main_v1 (ix2 0 (Cert.Spec.off (gN t) ⟨(y 1).val, (y 1).isLt⟩))
  refine congrArg _ ?_
  funext a; apply Fin.ext
  match a with
  | ⟨0, _⟩ => show win1_4.index t (0 : Fin 2) * 1 + 1 * (y 0).val = 0; rw [e0]; have hy : (y 0).val < 1 := (y 0).isLt; omega
  | ⟨1, _⟩ => show win1_4.index t (1 : Fin 2) * 128 + 1 * (y 1).val = (gN t).val * 128 + (y 1).val; rw [e1]; show _ = t.val % 4 * 128 + (y 1).val; omega

end Cert.KernelIdeal.Hand

end
-- ==== Proof.KIPay.lean ====
/-
  The kernels' payloads at the ideal instance, read at an index: the distance kernel's stored value is the distance matrix of
  its input block; the triplet kernel's two stored values are the running accumulators plus one tile's clamped sum and count.
-/
import proofs.«430113_j6038724018541_3_alg».proof.Proof.Gen.KernelIdeal.Skeleton
import proofs.«430113_j6038724018541_3_alg».proof.Proof.TileSpec
import Idealize.ShloMosaic.Lib.Pipeline.Value
import Idealize.ShloMosaic.Lib.ValueLayout

noncomputable section

namespace Cert.KIPay

open Idealize.ShloMosaic Idealize.ShloMosaic.ValueIdx Cert.KernelIdeal Cert.KernelIdeal.Gen Cert.Spec

/-- The one word is the extended real 1. -/
private theorem oneW_eq : oneW = 1 := by
  show Ideal.ofBits .f32 0x3F800000#32 = 1
  simp [Ideal.ofBits, Ideal.ieee, -EReal.coe_mul]; norm_num

private theorem zeroW_eq : zeroW = 0 := Ideal.ofBits_zero_f32

/-- Row p's sum of squares. -/
private theorem sqn_read (x : FVec Ideal S512x768 .f32) (p : Fin 512) :
    multiReduction (F := Ideal) .add [1] S512 (mulf x x) 0x00000000#32 reduces_S512x768_S512 (.inl rfl) rfl (ix1 p) = sqn x p := by
  refine (Ideal.multiReduction_add_single (mulf x x) _ reduces_S512x768_S512 _ _ (ix1 p)).trans ?_
  unfold sqn
  rw [zeroW_eq, zero_add]
  refine Finset.sum_congr rfl fun k _ => ?_
  have e : reduces_S512x768_S512.lift (ix1 p) k = ix2 p k :=
    funext fun a => Fin.ext (by match a with | ⟨0, _⟩ => rfl | ⟨1, _⟩ => rfl)
  rw [e]
  rfl

private theorem lhs_0 (i : S512x512.Idx) (q : dot_S512x768_S768x512_S512x512_1_0_0_1_n_n.contr.Idx) :
    (dot_S512x768_S768x512_S512x512_1_0_0_1_n_n.lhsIdx i q 0).val = (i 0).val := by
  unfold DotDims.lhsIdx
  rw [dif_neg (show ¬(0 : Fin S512x768.rank) ∈ dot_S512x768_S768x512_S512x512_1_0_0_1_n_n.lhsBatch by decide), dif_pos (show (0 : Fin S512x768.rank) ∈ dot_S512x768_S768x512_S512x512_1_0_0_1_n_n.lhsNonContracting by decide)]
  rfl
private theorem lhs_1 (i : S512x512.Idx) (q : dot_S512x768_S768x512_S512x512_1_0_0_1_n_n.contr.Idx) :
    (dot_S512x768_S768x512_S512x512_1_0_0_1_n_n.lhsIdx i q 1).val = (q ⟨0, by decide⟩).val :=
  dot_S512x768_S768x512_S512x512_1_0_0_1_n_n.lhsIdx_val_of_single rfl i q
private theorem rhs_0 (i : S512x512.Idx) (q : dot_S512x768_S768x512_S512x512_1_0_0_1_n_n.contr.Idx) :
    (dot_S512x768_S768x512_S512x512_1_0_0_1_n_n.rhsIdx i q 0).val = (q ⟨0, by decide⟩).val :=
  dot_S512x768_S768x512_S512x512_1_0_0_1_n_n.rhsIdx_val_of_single rfl i q
private theorem rhs_1 (i : S512x512.Idx) (q : dot_S512x768_S768x512_S512x512_1_0_0_1_n_n.contr.Idx) :
    (dot_S512x768_S768x512_S512x512_1_0_0_1_n_n.rhsIdx i q 1).val = (i 1).val := by
  unfold DotDims.rhsIdx
  rw [dif_neg (show ¬(1 : Fin S768x512.rank) ∈ dot_S512x768_S768x512_S512x512_1_0_0_1_n_n.rhsBatch by decide), dif_pos (show (1 : Fin S768x512.rank) ∈ dot_S512x768_S768x512_S512x512_1_0_0_1_n_n.rhsNonContracting by decide)]
  rfl

/-- The product with the transpose, into the zero splat, is the inner product of rows p and q. -/
private theorem gram_read (x : FVec Ideal S512x768 .f32) (p q : Fin 512) :
    matmul (F := Ideal) dot_S512x768_S768x512_S512x512_1_0_0_1_n_n none x
      (transpose S768x512 [1, 0] x transposes_S512x768_p1_0_S768x512) (constant S512x512 .f32 0x00000000#32) (ix2 p q) = gram x p q := by
  refine (Ideal.matmul_constant_zero_apply dot_S512x768_S768x512_S512x512_1_0_0_1_n_n none x _ (ix2 p q)).trans ?_
  rw [← Equiv.sum_comp (contrEquiv1 dot_S512x768_S768x512_S512x512_1_0_0_1_n_n 768 rfl rfl).symm]
  unfold gram
  refine Finset.sum_congr rfl fun k _ => ?_
  have hk := contrEquiv1_symm_val dot_S512x768_S768x512_S512x512_1_0_0_1_n_n 768 rfl rfl k
  have el : dot_S512x768_S768x512_S512x512_1_0_0_1_n_n.lhsIdx (ix2 p q) ((contrEquiv1 dot_S512x768_S768x512_S512x512_1_0_0_1_n_n 768 rfl rfl).symm k) = ix2 p k := funext fun a => Fin.ext (by
    match a with
    | ⟨0, _⟩ => exact lhs_0 _ _
    | ⟨1, _⟩ => exact (lhs_1 _ _).trans hk)
  have er : dot_S512x768_S768x512_S512x512_1_0_0_1_n_n.rhsIdx (ix2 p q) ((contrEquiv1 dot_S512x768_S768x512_S512x512_1_0_0_1_n_n 768 rfl rfl).symm k) = ix2 k q := funext fun a => Fin.ext (by
    match a with
    | ⟨0, _⟩ => exact (rhs_0 _ _).trans hk
    | ⟨1, _⟩ => exact rhs_1 _ _)
  rw [el, er]
  exact congrArg (x (ix2 p k) * ·) (transpose_ix2_apply x transposes_S512x768_p1_0_S768x512 k q)

/-- The column of squared norms, read at (p, u), is row p's squared norm. -/
private theorem col_read (x : FVec Ideal S512x768 .f32) (p : Fin 512) (u : Fin 1) :
    shapeCast S512x1 (multiReduction (F := Ideal) .add [1] S512 (mulf x x) 0x00000000#32 reduces_S512x768_S512 (.inl rfl) rfl)
      shapeCasts_S512_S512x1 (ix2 p u) = sqn x p := by
  refine (shapeCast_apply _ shapeCasts_S512_S512x1 (ix2 p u) (ix1 p) ?_).trans (sqn_read x p)
  have hu : u.val = 0 := by omega
  rw [Shape.rowMajor_val_one, Shape.rowMajor_val_two]
  show p.val = p.val * 1 + u.val
  omega

/-- The value the two selects and the root make of the clamped squared distance. -/
private theorem tail_read (w : FVec Ideal S512x512 .f32) (j : S512x512.Idx) (s : EReal) (h : w j = s) :
    select (cmpf .ogt w (broadcast S512x512 (Scalar.ofBits .f32 0x00000000#32)))
      (sqrt (select (cmpf .ogt w (broadcast S512x512 (Scalar.ofBits .f32 0x00000000#32))) w
        (broadcast S512x512 (Scalar.ofBits .f32 0x3F800000#32))))
      (broadcast S512x512 (Scalar.ofBits .f32 0x00000000#32)) j
      = Scalar.select (Ideal.cmp .ogt s zeroW) (Ideal.sqrt (Scalar.select (Ideal.cmp .ogt s zeroW) s oneW)) zeroW := by
  subst h; rfl

/-! The re-layouts of the triplet kernel, read at an index. -/

private theorem bc_ab1 {α : Type} (v : S128x128x1.Idx → α) (i j k : Fin 128) :
    broadcastTo S128x128x128 v broadcasts_S128x128x1_S128x128x128 (ix3 i j k) = v (ix3 i j (0 : Fin 1)) := by
  refine broadcastTo_apply v _ (ix3 i j k) (ix3 i j (0 : Fin 1)) fun a => ?_
  match a with
  | ⟨0, _⟩ => show i.val = if (128 : Nat) = 1 then 0 else i.val; rw [if_neg (by decide)]
  | ⟨1, _⟩ => show j.val = if (128 : Nat) = 1 then 0 else j.val; rw [if_neg (by decide)]
  | ⟨2, _⟩ => show 0 = if (1 : Nat) = 1 then 0 else k.val; rw [if_pos rfl]

private theorem bc_a1b {α : Type} (v : S128x1x128.Idx → α) (i j k : Fin 128) :
    broadcastTo S128x128x128 v broadcasts_S128x1x128_S128x128x128 (ix3 i j k) = v (ix3 i (0 : Fin 1) k) := by
  refine broadcastTo_apply v _ (ix3 i j k) (ix3 i (0 : Fin 1) k) fun a => ?_
  match a with
  | ⟨0, _⟩ => show i.val = if (128 : Nat) = 1 then 0 else i.val; rw [if_neg (by decide)]
  | ⟨1, _⟩ => show 0 = if (1 : Nat) = 1 then 0 else j.val; rw [if_pos rfl]
  | ⟨2, _⟩ => show k.val = if (128 : Nat) = 1 then 0 else k.val; rw [if_neg (by decide)]

private theorem sc_ab_ab1 {α : Type} (v : S128x128.Idx → α) (i j : Fin 128) (u : Fin 1) :
    shapeCast S128x128x1 v shapeCasts_S128x128_S128x128x1 (ix3 i j u) = v (ix2 i j) := by
  refine shapeCast_apply v _ (ix3 i j u) (ix2 i j) ?_
  have hu : u.val = 0 := by omega
  rw [Shape.rowMajor_val_three, Shape.rowMajor_val_two]
  show i.val * 128 + j.val = (i.val * 128 + j.val) * 1 + u.val
  omega

private theorem sc_ab_a1b {α : Type} (v : S128x128.Idx → α) (i k : Fin 128) (u : Fin 1) :
    shapeCast S128x1x128 v shapeCasts_S128x128_S128x1x128 (ix3 i u k) = v (ix2 i k) := by
  refine shapeCast_apply v _ (ix3 i u k) (ix2 i k) ?_
  have hu : u.val = 0 := by omega
  rw [Shape.rowMajor_val_three, Shape.rowMajor_val_two]
  show i.val * 128 + k.val = (i.val * 1 + u.val) * 128 + k.val
  omega

private theorem sc_ab_ab {α : Type} (v : S128x128.Idx → α) (j : S128x128.Idx) :
    shapeCast S128x128 v shapeCasts_S128x128_S128x128 j = v j :=
  shapeCast_apply v _ j j rfl

/-- A row of ids as a column, broadcast along the rows: at (i, j) the id at i. -/
private theorem colT_read (t : IVec S1x128 32) (i j : Fin 128) :
    broadcastTo S128x128 (shapeCast S128x1 (shapeCast S128 t shapeCasts_S1x128_S128) shapeCasts_S128_S128x1)
      broadcasts_S128x1_S128x128 (ix2 i j) = t (ix2 0 i) := by
  refine (broadcastTo_apply _ broadcasts_S128x1_S128x128 (ix2 i j) (ix2 i (0 : Fin 1)) fun a => ?_).trans ?_
  · match a with
    | ⟨0, _⟩ => show i.val = if (128 : Nat) = 1 then 0 else i.val; rw [if_neg (by decide)]
    | ⟨1, _⟩ => show 0 = if (1 : Nat) = 1 then 0 else j.val; rw [if_pos rfl]
  refine (shapeCast_apply _ shapeCasts_S128_S128x1 (ix2 i (0 : Fin 1)) (ix1 i) ?_).trans ?_
  · rw [Shape.rowMajor_val_one, Shape.rowMajor_val_two]
    show i.val = i.val * 1 + 0
    omega
  exact shapeCast_1a_a_apply t shapeCasts_S1x128_S128 i

/-- A row of ids broadcast down the columns: at (i, j) the id at j. -/
private theorem rowT_read (t : IVec S1x128 32) (i j : Fin 128) :
    broadcastTo S128x128 (shapeCast S1x128 (shapeCast S128 t shapeCasts_S1x128_S128) shapeCasts_S128_S1x128)
      broadcasts_S1x128_S128x128 (ix2 i j) = t (ix2 0 j) := by
  refine (broadcastTo_1b_ab_apply _ broadcasts_S1x128_S128x128 i j).trans ?_
  refine (shapeCast_a_1a_apply _ shapeCasts_S128_S1x128 (0 : Fin 1) j).trans ?_
  exact shapeCast_1a_a_apply t shapeCasts_S1x128_S128 j

/-- A one-bit word widened to 32 bits and read as a signed integer is 1 or 0. -/
private theorem widen_read (b : BitVec 1) :
    FloatOps.sitofp (F := Ideal) .f32 (b.setWidth 32) = if b = 1#1 then (1 : EReal) else 0 := by
  rcases BitVec.eq_zero_or_eq_one b with h | h <;> subst h
  · rw [if_neg (by decide)]
    show ((((0#1 : BitVec 1).setWidth 32).toInt : ℝ) : EReal) = 0
    rw [show ((0#1 : BitVec 1).setWidth 32).toInt = 0 by decide]; simp
  · rw [if_pos rfl]
    show ((((1#1 : BitVec 1).setWidth 32).toInt : ℝ) : EReal) = 1
    rw [show ((1#1 : BitVec 1).setWidth 32).toInt = 1 by decide]; simp

/-- The product of "a and p agree" with one minus "a and n agree" is the triplet's indicator. -/
private theorem mask_word (a p n : BitVec 32) :
    FloatOps.sitofp (F := Ideal) .f32 ((IntOp.cmpi .eq a p).setWidth 32)
      * (oneW - FloatOps.sitofp (F := Ideal) .f32 ((IntOp.cmpi .eq a n).setWidth 32))
      = if a = p ∧ ¬ a = n then 1 else 0 := by
  rw [widen_read, widen_read, oneW_eq]
  simp only [IntOp.cmpi_eq]
  by_cases h1 : a = p <;> by_cases h2 : a = n
  · rw [if_pos h1, if_pos h2, if_neg (fun h : a = p ∧ ¬ a = n => h.2 h2)]
    show (1 : EReal) * (((1 : ℝ) : EReal) - ((1 : ℝ) : EReal)) = 0
    rw [← EReal.coe_sub, sub_self, EReal.coe_zero, mul_zero]
  · rw [if_pos h1, if_neg h2, if_pos ⟨h1, h2⟩, sub_zero, mul_one]
  · rw [if_neg h1, zero_mul, if_neg (fun h : a = p ∧ ¬ a = n => h1 h.1)]
  · rw [if_neg h1, zero_mul, if_neg (fun h : a = p ∧ ¬ a = n => h1 h.1)]

/-- The mask payload at (i, j, k) is the tile's indicator. -/
private theorem mask_read (ta tp tn : IVec S1x128 32) (i j k : Fin 128) :
    k1_pay5 (F := Ideal) ta tp tn (ix3 i j k) = tmask ta tp tn i j k := by
  unfold k1_pay5 tmask
  refine Eq.trans ?_ (mask_word (ta (ix2 0 i)) (tp (ix2 0 j)) (tn (ix2 0 k)))
  refine congrArg₂ (· * ·) ?_ ?_
  · refine (bc_ab1 _ i j k).trans ?_
    refine (sc_ab_ab1 _ i j 0).trans ?_
    refine congrArg (fun b : BitVec 1 => FloatOps.sitofp (F := Ideal) .f32 (b.setWidth 32)) ?_
    exact congrArg₂ (IntOp.cmpi .eq) (colT_read ta i j) (rowT_read tp i j)
  · refine (bc_a1b _ i j k).trans ?_
    refine (sc_ab_a1b _ i k 0).trans ?_
    refine congrArg (oneW - ·) ?_
    refine congrArg (fun b : BitVec 1 => FloatOps.sitofp (F := Ideal) .f32 (b.setWidth 32)) ?_
    exact congrArg₂ (IntOp.cmpi .eq) (colT_read ta i k) (rowT_read tn i k)

/-- The three staged sums of a cube (over the depth, then the columns, then the rows, each onto the zero word),
    added to the old value, are the old value plus the triple sum. -/
private theorem stage3 (c : FVec Ideal S128x128x128 .f32) (prev : FVec Ideal S1x1 .f32) (j : S1x1.Idx) :
    addf (shapeCast S1x1 prev shapeCasts_S1x1_S1x1)
      (shapeCast S1x1
        (multiReduction (F := Ideal) .add [0] S1
          (shapeCast S128x1
            (multiReduction (F := Ideal) .add [1] S128
              (multiReduction (F := Ideal) .add [2] S128x128 c 0x00000000#32 reduces_S128x128x128_S128x128 (.inl rfl) rfl)
              0x00000000#32 reduces_S128x128_S128 (.inl rfl) rfl)
            shapeCasts_S128_S128x1)
          0x00000000#32 reduces_S128x1_S1 (.inl rfl) rfl)
        shapeCasts_S1_S1x1) j
      = prev (ix2 0 0) + ∑ a : Fin 128, ∑ b : Fin 128, ∑ d : Fin 128, c (ix3 a b d) := by
  obtain ⟨u, v, rfl⟩ : ∃ u v, j = ix2 u v := ⟨j 0, j 1, eq_ix2 j⟩
  obtain rfl : u = 0 := Subsingleton.elim _ _
  obtain rfl : v = 0 := Subsingleton.elim _ _
  refine congrArg₂ (· + ·) ?_ ?_
  · exact shapeCast_apply prev shapeCasts_S1x1_S1x1 _ _ rfl
  refine (shapeCast_apply _ shapeCasts_S1_S1x1 (ix2 (0 : Fin 1) (0 : Fin 1)) (ix1 (0 : Fin 1)) ?_).trans ?_
  · rw [Shape.rowMajor_val_one, Shape.rowMajor_val_two]
    rfl
  refine (Ideal.multiReduction_add_single _ _ reduces_S128x1_S1 _ _ (ix1 (0 : Fin 1))).trans ?_
  refine Finset.sum_congr rfl fun a _ => ?_
  have e0 : reduces_S128x1_S1.lift (ix1 (0 : Fin 1)) a = ix2 a (0 : Fin 1) :=
    funext fun x => Fin.ext (by match x with | ⟨0, _⟩ => rfl | ⟨1, _⟩ => rfl)
  rw [e0]
  refine (shapeCast_apply _ shapeCasts_S128_S128x1 (ix2 a (0 : Fin 1)) (ix1 a) ?_).trans ?_
  · rw [Shape.rowMajor_val_one, Shape.rowMajor_val_two]
    show a.val = a.val * 1 + 0
    omega
  refine (Ideal.multiReduction_add_single _ _ reduces_S128x128_S128 _ _ (ix1 a)).trans ?_
  refine Finset.sum_congr rfl fun b _ => ?_
  have e1 : reduces_S128x128_S128.lift (ix1 a) b = ix2 a b :=
    funext fun x => Fin.ext (by match x with | ⟨0, _⟩ => rfl | ⟨1, _⟩ => rfl)
  rw [e1]
  refine (Ideal.multiReduction_add_single _ _ reduces_S128x128x128_S128x128 _ _ (ix2 a b)).trans ?_
  refine Finset.sum_congr rfl fun d _ => ?_
  have e2 : reduces_S128x128x128_S128x128.lift (ix2 a b) d = ix3 a b d :=
    funext fun x => Fin.ext (by match x with | ⟨0, _⟩ => rfl | ⟨1, _⟩ => rfl | ⟨2, _⟩ => rfl)
  exact congrArg c e2

/-- The distance kernel's stored value is the distance matrix of the block it loaded. -/
theorem dist_pay (x : Vec Ideal S512x768 .f32) : k0_pay1 (F := Ideal) x = distArr x := by
  funext j
  obtain ⟨p, q, rfl⟩ : ∃ p q, j = ix2 p q := ⟨j 0, j 1, eq_ix2 j⟩
  unfold k0_pay1
  refine (tail_read _ (ix2 p q) (Cert.Spec.sq x p q) ?_).trans rfl
  unfold Cert.Spec.sq
  refine congrArg (max · zeroW) ?_
  refine congrArg₂ (· - ·) (congrArg₂ (· + ·) ?_ ?_) (congrArg (twoW * ·) ?_)
  · -- the column broadcast along the rows
    refine (broadcastTo_apply _ broadcasts_S512x1_S512x512 (ix2 p q) (ix2 p (0 : Fin 1)) fun a => ?_).trans (col_read x p 0)
    match a with
    | ⟨0, _⟩ => show p.val = if (512 : Nat) = 1 then 0 else p.val; rw [if_neg (by decide)]
    | ⟨1, _⟩ => show 0 = if (1 : Nat) = 1 then 0 else q.val; rw [if_pos rfl]
  · -- the transposed column, one row, broadcast down the columns
    refine (broadcastTo_1b_ab_apply _ broadcasts_S1x512_S512x512 p q).trans ?_
    refine (transpose_ix2_apply _ transposes_S512x1_p1_0_S1x512 (0 : Fin 1) q).trans (col_read x q 0)
  · exact gram_read x p q

/-- The two reset values are zero. -/
theorem pay3_zero : (k1_pay3 (F := Ideal)) = fun _ => (0 : EReal) := by
  funext i
  show Ideal.ofBits .f32 0x00000000#32 = 0
  exact Ideal.ofBits_zero_f32
theorem pay4_zero : (k1_pay4 (F := Ideal)) = fun _ => (0 : EReal) := by
  funext i
  show Ideal.ofBits .f32 0x00000000#32 = 0
  exact Ideal.ofBits_zero_f32

/-- The loss accumulator's new value: the old one plus the tile's clamped sum. -/
theorem loss_pay (dap dan : Vec Ideal S128x128 .f32) (ta tp tn : Vec Ideal S1x128 .i32) (prev : Vec Ideal S1x1 .f32) :
    k1_pay1 (F := Ideal) (k1_pay5 ta tp tn) (k1_pay6 dan) (k1_pay7 dap) prev
      = fun _ => prev (ix2 0 0) + tileLoss dap dan ta tp tn := by
  funext j
  unfold k1_pay1 tileLoss
  refine (stage3 _ prev j).trans ?_
  refine congrArg (prev (ix2 0 0) + ·) ?_
  refine Finset.sum_congr rfl fun a _ => Finset.sum_congr rfl fun b _ => Finset.sum_congr rfl fun d _ => ?_
  unfold ttrip
  refine congrArg (max · zeroW) ?_
  refine congrArg (· + oneW) ?_
  refine congrArg₂ (· * ·) (congrArg₂ (· - ·) ?_ ?_) (mask_read ta tp tn a b d)
  · -- the (a, p) block, given a unit depth axis and broadcast over the depth
    unfold k1_pay7
    refine (bc_ab1 _ a b d).trans ?_
    refine (sc_ab_ab1 _ a b 0).trans ?_
    exact sc_ab_ab dap (ix2 a b)
  · -- the (a, n) block, given a unit column axis and broadcast over the columns
    unfold k1_pay6
    refine (bc_a1b _ a b d).trans ?_
    refine (sc_ab_a1b _ a d 0).trans ?_
    exact sc_ab_ab dan (ix2 a d)

/-- The count accumulator's new value: the old one plus the tile's count of valid triplets. -/
theorem valid_pay (ta tp tn : Vec Ideal S1x128 .i32) (prev : Vec Ideal S1x1 .f32) :
    k1_pay2 (F := Ideal) (k1_pay5 ta tp tn) prev = fun _ => prev (ix2 0 0) + tileValid ta tp tn := by
  funext j
  unfold k1_pay2 tileValid
  refine (stage3 _ prev j).trans ?_
  refine congrArg (prev (ix2 0 0) + ·) ?_
  exact Finset.sum_congr rfl fun a _ => Finset.sum_congr rfl fun b _ => Finset.sum_congr rfl fun d _ => mask_read ta tp tn a b d

end Cert.KIPay

end
-- ==== Proof.TileSums.lean ====
/-
  The tiles' sums are the whole sums: a sum over [512]³ regrouped as 4 × 4 × 4 tiles of 128³. Addition of extended reals is
  commutative and associative, so no finiteness is needed.
-/
import proofs.«430113_j6038724018541_3_alg».proof.Proof.TileSpec

noncomputable section

namespace Cert.Spec

open Idealize.ShloMosaic Idealize.ShloMosaic.ValueIdx

/-- An axis of 512 is 4 blocks of 128: the pair (b, i) is the entry b · 128 + i, with quotient b and remainder i. -/
private def offEquiv : Fin 4 × Fin 128 ≃ Fin 512 where
  toFun x := off x.1 x.2
  invFun a := (⟨a.val / 128, by omega⟩, ⟨a.val % 128, by omega⟩)
  left_inv := by
    rintro ⟨b, i⟩
    refine Prod.ext (Fin.ext ?_) (Fin.ext ?_)
    · show (b.val * 128 + i.val) / 128 = b.val
      omega
    · show (b.val * 128 + i.val) % 128 = i.val
      omega
  right_inv := by
    intro a
    refine Fin.ext ?_
    show a.val / 128 * 128 + a.val % 128 = a.val
    omega

/-- A sum over the axis is the sum over the blocks of the sums within each block. -/
private theorem sum_off (f : Fin 512 → EReal) :
    ∑ a : Fin 512, f a = ∑ b : Fin 4, ∑ i : Fin 128, f (off b i) := by
  rw [← offEquiv.sum_comp f, Fintype.sum_prod_type]
  rfl

/-- A sum over the cube is the sum over the 64 tiles of the sums within each tile. -/
private theorem sum_cube (f : Fin 512 → Fin 512 → Fin 512 → EReal) :
    ∑ a : Fin 512, ∑ p : Fin 512, ∑ n : Fin 512, f a p n
      = ∑ a' : Fin 4, ∑ p' : Fin 4, ∑ n' : Fin 4,
          ∑ i : Fin 128, ∑ j : Fin 128, ∑ k : Fin 128, f (off a' i) (off p' j) (off n' k) := by
  -- cut each axis into its blocks, innermost first
  have h1 : ∀ a p : Fin 512, ∑ n : Fin 512, f a p n = ∑ n' : Fin 4, ∑ k : Fin 128, f a p (off n' k) :=
    fun a p => sum_off (fun n => f a p n)
  have h2 : ∀ a : Fin 512, ∑ p : Fin 512, ∑ n : Fin 512, f a p n
      = ∑ p' : Fin 4, ∑ n' : Fin 4, ∑ j : Fin 128, ∑ k : Fin 128, f a (off p' j) (off n' k) := by
    intro a
    rw [sum_off (fun p => ∑ n : Fin 512, f a p n)]
    refine Finset.sum_congr rfl (fun p' _ => ?_)
    -- Σ_j Σ_n' Σ_k = Σ_n' Σ_j Σ_k
    rw [Finset.sum_congr rfl (fun j _ => h1 a (off p' j))]
    exact Finset.sum_comm
  rw [sum_off (fun a => ∑ p : Fin 512, ∑ n : Fin 512, f a p n)]
  refine Finset.sum_congr rfl (fun a' _ => ?_)
  rw [Finset.sum_congr rfl (fun i _ => h2 (off a' i))]
  -- Σ_i Σ_p' Σ_n' = Σ_p' Σ_n' Σ_i
  rw [Finset.sum_comm]
  refine Finset.sum_congr rfl (fun p' _ => ?_)
  exact Finset.sum_comm

/-- Within tile (a', p', n'), the mask over the blocks is the mask at the global coordinates. -/
private theorem tmask_blk (ty : T1.Idx → BitVec 32) (a' p' n' : Fin 4) (i j k : Fin 128) :
    tmask (blkT ty a') (blkT ty p') (blkT ty n') i j k = mask ty (off a' i) (off p' j) (off n' k) := rfl

/-- Within tile (a', p', n'), the clamped term over the blocks is the clamped term at the global coordinates. -/
private theorem ttrip_blk (D : D2.Idx → EReal) (ty : T1.Idx → BitVec 32) (a' p' n' : Fin 4) (i j k : Fin 128) :
    ttrip (blkD D a' p') (blkD D a' n') (blkT ty a') (blkT ty p') (blkT ty n') i j k
      = trip D ty (off a' i) (off p' j) (off n' k) := rfl

/-- The clamped sums of the 64 tiles add up to the whole clamped sum. -/
theorem loss_tiles (D : D2.Idx → EReal) (ty : T1.Idx → BitVec 32) :
    ∑ a' : Fin 4, ∑ p' : Fin 4, ∑ n' : Fin 4,
        tileLoss (blkD D a' p') (blkD D a' n') (blkT ty a') (blkT ty p') (blkT ty n') = lossTotal D ty := by
  unfold lossTotal tileLoss
  rw [sum_cube (fun a p n => trip D ty a p n)]
  refine Finset.sum_congr rfl (fun a' _ => Finset.sum_congr rfl (fun p' _ => Finset.sum_congr rfl (fun n' _ => ?_)))
  refine Finset.sum_congr rfl (fun i _ => Finset.sum_congr rfl (fun j _ => Finset.sum_congr rfl (fun k _ => ?_)))
  exact ttrip_blk D ty a' p' n' i j k

/-- The valid counts of the 64 tiles add up to the whole count. -/
theorem valid_tiles (ty : T1.Idx → BitVec 32) :
    ∑ a' : Fin 4, ∑ p' : Fin 4, ∑ n' : Fin 4, tileValid (blkT ty a') (blkT ty p') (blkT ty n') = validTotal ty := by
  unfold validTotal tileValid
  rw [sum_cube (fun a p n => mask ty a p n)]
  refine Finset.sum_congr rfl (fun a' _ => Finset.sum_congr rfl (fun p' _ => Finset.sum_congr rfl (fun n' _ => ?_)))
  refine Finset.sum_congr rfl (fun i _ => Finset.sum_congr rfl (fun j _ => Finset.sum_congr rfl (fun k _ => ?_)))
  exact tmask_blk ty a' p' n' i j k

/-- The 64 grid points in row-major order are the triples (t / 16, t / 4 mod 4, t mod 4). -/
private def gridEquiv : Fin 4 × Fin 4 × Fin 4 ≃ Fin 64 where
  toFun x := ⟨x.1.val * 16 + x.2.1.val * 4 + x.2.2.val, by omega⟩
  invFun t := (⟨t.val / 16, by omega⟩, ⟨t.val / 4 % 4, by omega⟩, ⟨t.val % 4, by omega⟩)
  left_inv := by
    rintro ⟨a, p, n⟩
    refine Prod.ext (Fin.ext ?_) (Prod.ext (Fin.ext ?_) (Fin.ext ?_))
    · show (a.val * 16 + p.val * 4 + n.val) / 16 = a.val
      omega
    · show (a.val * 16 + p.val * 4 + n.val) / 4 % 4 = p.val
      omega
    · show (a.val * 16 + p.val * 4 + n.val) % 4 = n.val
      omega
  right_inv := by
    intro t
    refine Fin.ext ?_
    show t.val / 16 * 16 + t.val / 4 % 4 * 4 + t.val % 4 = t.val
    omega

/-- The 64 grid points in row-major order are the 4 × 4 × 4 tiles. -/
theorem sum_grid (g : Fin 4 → Fin 4 → Fin 4 → EReal) :
    ∑ t : Fin 64, g ⟨t.val / 16, by omega⟩ ⟨t.val / 4 % 4, by omega⟩ ⟨t.val % 4, by omega⟩
      = ∑ a' : Fin 4, ∑ p' : Fin 4, ∑ n' : Fin 4, g a' p' n' := by
  -- the sum over t is the sum over the triples, read through the bijection t ↦ (t / 16, t / 4 mod 4, t mod 4)
  refine Eq.trans (gridEquiv.symm.sum_comp (fun x : Fin 4 × Fin 4 × Fin 4 => g x.1 x.2.1 x.2.2)) ?_
  rw [Fintype.sum_prod_type]
  refine Finset.sum_congr rfl (fun a' _ => ?_)
  rw [Fintype.sum_prod_type]

end Cert.Spec

end
-- ==== Proof.KIValue.lean ====
/-
  The idealized kernel's result is the specification.
  Region 0 leaves the distance matrix of the embeddings in the distance array; the reshape lays the type ids out as one row.
  Region 1's accumulators after grid point n hold the sums of the tiles 0 … n (induction on the point: the first point resets and
  adds, every later point adds to what the point before left); the 64 tiles' sums are the whole sums over [512]³; the closing
  host operations divide the two totals.
-/
import proofs.«430113_j6038724018541_3_alg».proof.Proof.KI.Run
import proofs.«430113_j6038724018541_3_alg».proof.Proof.KI.Pieces
import proofs.«430113_j6038724018541_3_alg».proof.Proof.KI.Blocks
import proofs.«430113_j6038724018541_3_alg».proof.Proof.KIPay
import proofs.«430113_j6038724018541_3_alg».proof.Proof.TileSums
import Idealize.ShloMosaic.Lib.StableHlo.Run
import Idealize.ShloMosaic.Lib.Pipeline.Value

set_option maxRecDepth 16384

noncomputable section

namespace Cert.KIValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.Spec

variable (m : (ℓ : Loc nD τ sig) → Buf (Elt Ideal) ℓ) (c : Dev nD)

/-- The type ids and the embeddings as launched. -/
abbrev tyA : T1.Idx → BitVec 32 := m ((c.tc : Thread nD τ).loc main_arg0)
abbrev xA : X2.Idx → EReal := m ((c.tc : Thread nD τ).loc main_arg1)

/-! ## What region 1 is entered with -/

/-- The distance array at region 1's entry is the distance matrix of the embeddings: the reshape between the regions does not
    write it, region 0's write-back left the distance payload of the embeddings there. -/
theorem dist_entry : (U2 m c main_v0 : D2.Idx → EReal) = distArr (xA m c) := by
  have h1 : W2 m c main_v0 = W1 m c main_v0 := StableHlo.after_of_writes_sub hostOps1 _ hostOps1_writes (by decide)
  show W2 m c main_v0 = _
  rw [h1, W1_main_v0, arrAt0_1]
  exact Cert.KIPay.dist_pay _

/-- The row of type ids at region 1's entry, read at column `q`, is type id `q`: a reshape keeps the row-major position. -/
theorem types_entry (q : Fin 512) : U2 m c main_v1 (ix2 0 q) = tyA m c (ix1 q) := by
  show StableHlo.after hostOps1 (W1 m c) (Proc.devRef .tc main_v1) (ix2 0 q) = _
  have e : StableHlo.after hostOps1 (W1 m c) (Proc.devRef .tc main_v1)
      = fun i => shapeCast S1x512 (W1 m c main_arg0) shapeCasts_S512_S1x512 i := by
    after_results; rfl
  rw [e]
  refine (shapeCast_apply (W1 m c main_arg0) shapeCasts_S512_S1x512 (ix2 0 q) (ix1 q) ?_).trans ?_
  · show ((S512 : Shape).rowMajor (ix1 q)).val = ((S1x512 : Shape).rowMajor (ix2 0 q)).val
    rw [Shape.rowMajor_val_one, Shape.rowMajor_val_two]
    show q.val = 0 * 512 + q.val
    omega
  · exact congrFun (W1_of_ne m c main_arg0 (by decide)) _

/-- A block of the row of type ids is the block of the type ids. -/
theorem tblk_entry (b : Fin 4) : tblk (U2 m c main_v1) b = blkT (tyA m c) b := by
  funext y
  unfold tblk blkT
  exact types_entry m c _

/-- A block of the distance array is the block of the distance matrix. -/
theorem dblk_entry (r s : Fin 4) : dblk (U2 m c main_v0) r s = blkD (distArr (xA m c)) r s := by
  unfold dblk blkD
  rw [dist_entry]

/-! ## The accumulation in closed form -/

/-- The tile coordinates of the `k`-th grid point in row-major order. -/
def tA (k : ℕ) : Fin 4 := ⟨k / 16 % 4, Nat.mod_lt _ (by decide)⟩
def tP (k : ℕ) : Fin 4 := ⟨k / 4 % 4, Nat.mod_lt _ (by decide)⟩
def tN (k : ℕ) : Fin 4 := ⟨k % 4, Nat.mod_lt _ (by decide)⟩

theorem gA_eq (t : Fin cfg1.N) : gA t = tA t.val := by
  have h : t.val < 64 := lt_of_lt_of_eq t.isLt (show cfg1.N = 64 from N_1)
  apply Fin.ext; show t.val / 16 = t.val / 16 % 4; omega
theorem gP_eq (t : Fin cfg1.N) : gP t = tP t.val := rfl
theorem gN_eq (t : Fin cfg1.N) : gN t = tN t.val := rfl

/-- The `k`-th tile's clamped sum and count, over the launch contents. -/
def tileL (k : ℕ) : EReal :=
  tileLoss (blkD (distArr (xA m c)) (tA k) (tP k)) (blkD (distArr (xA m c)) (tA k) (tN k))
    (blkT (tyA m c) (tA k)) (blkT (tyA m c) (tP k)) (blkT (tyA m c) (tN k))
def tileV (k : ℕ) : EReal :=
  tileValid (blkT (tyA m c) (tA k)) (blkT (tyA m c) (tP k)) (blkT (tyA m c) (tN k))

/-- One point's add payloads over the point's blocks: the old values plus the tile's sums. -/
theorem step_loss (t : Fin cfg1.N) (prev : Vec Ideal S1x1 .f32) :
    k1_pay1 (F := Ideal) (k1_pay5 (iblk1 (U2 m) c 2 t) (iblk1 (U2 m) c 3 t) (iblk1 (U2 m) c 4 t)) (k1_pay6 (iblk1 (U2 m) c 1 t)) (k1_pay7 (iblk1 (U2 m) c 0 t)) prev
      = fun _ => prev (ix2 0 0) + tileL m c t.val := by
  rw [iblk1_0, iblk1_1, iblk1_2, iblk1_3, iblk1_4, Cert.KIPay.loss_pay, dblk_entry, dblk_entry, tblk_entry, tblk_entry, tblk_entry,
    gA_eq, gP_eq, gN_eq]
  rfl
theorem step_valid (t : Fin cfg1.N) (prev : Vec Ideal S1x1 .f32) :
    k1_pay2 (F := Ideal) (k1_pay5 (iblk1 (U2 m) c 2 t) (iblk1 (U2 m) c 3 t) (iblk1 (U2 m) c 4 t)) prev
      = fun _ => prev (ix2 0 0) + tileV m c t.val := by
  rw [iblk1_2, iblk1_3, iblk1_4, Cert.KIPay.valid_pay, tblk_entry, tblk_entry, tblk_entry, gA_eq, gP_eq, gN_eq]
  rfl

/-- After grid point `n` the two accumulators hold the sums of the tiles 0 … n. -/
theorem acc : ∀ (n : ℕ) (hn : n < cfg1.N),
    (outsAt1 (U2 m) c n hn).1 = (fun _ => ∑ k ∈ Finset.range (n + 1), tileL m c k)
    ∧ (outsAt1 (U2 m) c n hn).2 = (fun _ => ∑ k ∈ Finset.range (n + 1), tileV m c k)
  | 0, hn => by
    have e := outsAt1_A (U2 m) c ⟨0, hn⟩ rfl
    dsimp only at e
    rw [e]
    dsimp only
    rw [out1_A_5_eq, out1_A_6_eq, step_loss m c ⟨0, hn⟩, step_valid m c ⟨0, hn⟩, Cert.KIPay.pay3_zero, Cert.KIPay.pay4_zero]
    constructor <;> · funext _; simp
  | n + 1, hn => by
    obtain ⟨ihL, ihV⟩ := acc n (Nat.lt_of_succ_lt hn)
    have e := outsAt1_B (U2 m) c ⟨n + 1, hn⟩ (Nat.succ_ne_zero n)
    dsimp only at e
    rw [e]
    dsimp only
    rw [out1_B_5_eq, out1_B_6_eq, step_loss m c ⟨n + 1, hn⟩, step_valid m c ⟨n + 1, hn⟩]
    simp only [Nat.add_sub_cancel]
    rw [ihL, ihV]
    constructor <;> · funext _; rw [Finset.sum_range_succ _ (n + 1)]

/-- The 64 tiles in row-major order add up to the whole sums. -/
theorem tiles_loss : ∑ k ∈ Finset.range 64, tileL m c k = lossTotal (distArr (xA m c)) (tyA m c) := by
  rw [← Fin.sum_univ_eq_sum_range (fun k => tileL m c k) 64, ← loss_tiles,
    ← sum_grid (fun a' p' n' => tileLoss (blkD (distArr (xA m c)) a' p') (blkD (distArr (xA m c)) a' n')
      (blkT (tyA m c) a') (blkT (tyA m c) p') (blkT (tyA m c) n'))]
  refine Finset.sum_congr rfl fun t _ => ?_
  have h := t.isLt
  unfold tileL
  have eA : tA t.val = ⟨t.val / 16, by omega⟩ := Fin.ext (by show t.val / 16 % 4 = t.val / 16; omega)
  rw [eA]; rfl
theorem tiles_valid : ∑ k ∈ Finset.range 64, tileV m c k = validTotal (tyA m c) := by
  rw [← Fin.sum_univ_eq_sum_range (fun k => tileV m c k) 64, ← valid_tiles,
    ← sum_grid (fun a' p' n' => tileValid (blkT (tyA m c) a') (blkT (tyA m c) p') (blkT (tyA m c) n'))]
  refine Finset.sum_congr rfl fun t _ => ?_
  have h := t.isLt
  unfold tileV
  have eA : tA t.val = ⟨t.val / 16, by omega⟩ := Fin.ext (by show t.val / 16 % 4 = t.val / 16; omega)
  rw [eA]; rfl

/-! ## The result -/

/-- After region 1 the loss array holds the whole clamped sum and the count array the number of valid triplets. -/
theorem loss_final : W3 m c main_v2_0 = fun _ => lossTotal (distArr (xA m c)) (tyA m c) := by
  rw [W3_main_v2_0, arrAt1_5, (acc m c 63 (by decide)).1, tiles_loss]
  rfl
theorem valid_final : W3 m c main_v2_1 = fun _ => validTotal (tyA m c) := by
  rw [W3_main_v2_1, arrAt1_6, (acc m c 63 (by decide)).2, tiles_valid]
  rfl

/-- The idealized kernel's result buffer ends at the specification of the launch contents. -/
theorem kernel_result : W4 m c main_v5 = Cert.Spec.result (tyA m c) (xA m c) := by
  show StableHlo.after hostOps2 (W3 m c) (Proc.devRef .tc main_v5) = _
  have e : StableHlo.after hostOps2 (W3 m c) (Proc.devRef .tc main_v5)
      = Host.divf (F := Ideal) (φ := .f32)
          (fun i : S_.Idx => shapeCast S_ (W3 m c main_v2_0 : S1x1.Idx → EReal) shapeCasts_S1x1_S_ i)
          (fun i : S_.Idx => shapeCast S_ (W3 m c main_v2_1 : S1x1.Idx → EReal) shapeCasts_S1x1_S_ i) := by
    after_results; rfl
  rw [e, loss_final, valid_final]
  funext i
  unfold Cert.Spec.result
  have hk : ((S1x1 : Shape).rowMajor (ix2 (0 : Fin 1) (0 : Fin 1))).val = ((S_ : Shape).rowMajor i).val := by
    rw [Shape.rowMajor_val_two]
    have := ((S_ : Shape).rowMajor i).isLt
    have hn : (S_ : Shape).numel = 1 := by decide
    show 0 * 1 + 0 = ((S_ : Shape).rowMajor i).val
    omega
  show Ideal.div (shapeCast S_ (fun _ : S1x1.Idx => lossTotal (distArr (xA m c)) (tyA m c)) shapeCasts_S1x1_S_ i)
      (shapeCast S_ (fun _ : S1x1.Idx => validTotal (tyA m c)) shapeCasts_S1x1_S_ i) = _
  rw [shapeCast_apply _ _ i (ix2 0 0) hk, shapeCast_apply _ _ i (ix2 0 0) hk]

end Cert.KIValue

end
-- ==== Proof.RefValue.lean ====
/-
  The reference's result is the specification: read operation by operation at an index.
-/
import proofs.«430113_j6038724018541_3_alg».proof.Proof.Gen.ReferenceIdeal.Read
import proofs.«430113_j6038724018541_3_alg».proof.Proof.Spec
import Idealize.ShloMosaic.Lib.StableHlo.Predicate

noncomputable section

namespace Cert.RefValue

open Idealize.ShloMosaic Idealize.ShloMosaic.ValueIdx Cert.ReferenceIdeal Cert.ReferenceIdeal.Gen Cert.ReferenceIdeal.Read

/-! ## The distance matrix -/

/-- Row `i`'s squared norm: the zero word plus the sum of the squares of the row's entries. -/
private theorem sqn_stage (x : (⟨S512x768, .f32⟩ : BufTy).Contents (Elt Ideal)) (i : Fin 512) :
    val_main_v12 (F := Ideal) x (ix1 i) = Cert.Spec.sqn x i := by
  rw [val_main_v12_apply]
  unfold Cert.Spec.sqn
  refine congrArg₂ (· + ·) rfl (Finset.sum_congr rfl fun k _ => ?_)
  rw [val_main_v11_apply]
  have e : idx_main_v12 (ix1 i) k = ix2 i k :=
    funext fun a => Fin.ext (by match a with | ⟨0, _⟩ => rfl | ⟨1, _⟩ => rfl)
  rw [e]
  rfl

/-- The inner product of rows `i` and `j`: the contraction of the embeddings with their transpose. -/
private theorem gram_stage (x : (⟨S512x768, .f32⟩ : BufTy).Contents (Elt Ideal)) (i j : Fin 512) :
    val_main_v19 (F := Ideal) x (ix2 i j) = Cert.Spec.gram x i j := by
  rw [val_main_v19_apply]
  unfold Cert.Spec.gram
  refine Finset.sum_congr rfl fun k _ => ?_
  rw [val_main_v18_apply]
  have el : lidx_main_v19 (ix2 i j) k = ix2 i k :=
    funext fun a => Fin.ext (by match a with | ⟨0, _⟩ => rfl | ⟨1, _⟩ => rfl)
  have er : idx_main_v18 (ridx_main_v19 (ix2 i j) k) = ix2 j k :=
    funext fun a => Fin.ext (by match a with | ⟨0, _⟩ => rfl | ⟨1, _⟩ => rfl)
  rw [el, er]

/-- The squared distance of rows `i` and `j`, clamped at zero. -/
private theorem sq_stage (x : (⟨S512x768, .f32⟩ : BufTy).Contents (Elt Ideal)) (i j : Fin 512) :
    val_main_v24 (F := Ideal) x (ix2 i j) = Cert.Spec.sq x i j := by
  rw [val_main_v24_apply, val_main_v22_apply, val_main_v17_apply, val_main_v21_apply, val_main_v15_apply,
    val_main_v13_apply, val_main_v16_apply, val_main_v14_apply, val_main_v20_apply, val_main_v23_apply,
    val_main_cst_0_apply, val_main_cst_1_apply]
  have e1 : idx_main_v13 (idx_main_v15 (ix2 i j)) = ix1 i :=
    funext fun a => Fin.ext (by match a with | ⟨0, _⟩ => rfl)
  have e2 : idx_main_v14 (idx_main_v16 (ix2 i j)) = ix1 j :=
    funext fun a => Fin.ext (by match a with | ⟨0, _⟩ => rfl)
  rw [e1, e2, sqn_stage, sqn_stage, gram_stage]
  rfl

/-- The distance of rows `i` and `j`: the root where the squared distance is positive, zero elsewhere. -/
private theorem dist_stage (x : (⟨S512x768, .f32⟩ : BufTy).Contents (Elt Ideal)) (i j : Fin 512) :
    val_main_v31 (F := Ideal) x (ix2 i j) = Cert.Spec.dist x i j := by
  rw [val_main_v31_apply, val_main_v26_apply, val_main_v30_apply, val_main_v29_apply, val_main_v28_apply,
    val_main_v25_apply, val_main_v27_apply, val_main_call1_v1_apply, val_main_call0_v1_apply,
    val_main_call0_v0_apply, val_main_call1_v0_apply, val_main_cst_2_apply, val_main_cst_3_apply,
    val_main_cst_4_apply, val_main_cst_5_apply, sq_stage]
  rfl

/-! ## The mask of valid triplets -/

/-- Entities `a` and `b` have one type: the comparison bit of the two broadcast type ids. -/
private theorem eq_stage (ty : (⟨S512, .i32⟩ : BufTy).Contents (Elt Ideal)) (a b : Fin 512) :
    val_main_v4 (F := Ideal) ty (ix2 a b) = IntOp.cmpi .eq (ty (ix1 a)) (ty (ix1 b)) := by
  rw [val_main_v4_apply, val_main_v2_apply, val_main_v0_apply, val_main_v3_apply, val_main_v1_apply]
  have e1 : idx_main_v0 (idx_main_v2 (ix2 a b)) = ix1 a :=
    funext fun c => Fin.ext (by match c with | ⟨0, _⟩ => rfl)
  have e2 : idx_main_v1 (idx_main_v3 (ix2 a b)) = ix1 b :=
    funext fun c => Fin.ext (by match c with | ⟨0, _⟩ => rfl)
  rw [e1, e2]

/-- Two words compared for equality and for inequality, as one bit: 1 exactly when the first pair is equal and the
    second is not. -/
private theorem and_not_bit (u v w : BitVec 32) :
    IntOp.andi (IntOp.cmpi .eq u v) (~~~ IntOp.cmpi .eq u w) = if u = v ∧ ¬ u = w then 1#1 else 0#1 := by
  show BitVec.ofBool (u == v) &&& ~~~ BitVec.ofBool (u == w) = _
  by_cases h1 : u = v
  · by_cases h2 : u = w
    · rw [if_neg (fun h => h.2 h2), beq_iff_eq.2 h1, beq_iff_eq.2 h2]; rfl
    · rw [if_pos ⟨h1, h2⟩, beq_iff_eq.2 h1, beq_eq_false_iff_ne.2 h2]; rfl
  · rw [if_neg (fun h => h1 h.1), beq_eq_false_iff_ne.2 h1]
    cases (u == w) <;> rfl

/-- The mask bit of the triplet `(a, p, n)`: 1 when `p` has `a`'s type and `n` another. -/
private theorem bit_stage (ty : (⟨S512, .i32⟩ : BufTy).Contents (Elt Ideal)) (a p n : Fin 512) :
    val_main_v10 (F := Ideal) ty (ix3 a p n)
      = if Cert.Spec.same ty a p ∧ ¬ Cert.Spec.same ty a n then 1#1 else 0#1 := by
  rw [val_main_v10_apply, val_main_v8_apply, val_main_v5_apply, val_main_v9_apply, val_main_v7_apply,
    val_main_v6_apply]
  have e1 : idx_main_v5 (idx_main_v8 (ix3 a p n)) = ix2 a p :=
    funext fun c => Fin.ext (by match c with | ⟨0, _⟩ => rfl | ⟨1, _⟩ => rfl)
  have e2 : idx_main_v7 (idx_main_v9 (ix3 a p n)) = ix2 a n :=
    funext fun c => Fin.ext (by match c with | ⟨0, _⟩ => rfl | ⟨1, _⟩ => rfl)
  rw [e1, e2, eq_stage, eq_stage]
  exact and_not_bit _ _ _

/-- The mask as an extended real: 1 or 0. -/
private theorem mask_stage (ty : (⟨S512, .i32⟩ : BufTy).Contents (Elt Ideal)) (a p n : Fin 512) :
    val_main_v37 (F := Ideal) ty (ix3 a p n) = Cert.Spec.mask ty a p n := by
  rw [val_main_v37_apply, bit_stage]
  unfold Cert.Spec.mask
  by_cases h : Cert.Spec.same ty a p ∧ ¬ Cert.Spec.same ty a n
  · rw [if_pos h, if_pos h]
    show (((1#1 : BitVec 1).toNat : ℝ) : EReal) = 1
    simp
  · rw [if_neg h, if_neg h]
    show (((0#1 : BitVec 1).toNat : ℝ) : EReal) = 0
    simp

/-! ## The sum of the clamped terms -/

/-- One triplet's clamped term. -/
private theorem trip_stage (ty : (⟨S512, .i32⟩ : BufTy).Contents (Elt Ideal))
    (x : (⟨S512x768, .f32⟩ : BufTy).Contents (Elt Ideal)) (a p n : Fin 512) :
    val_main_v42 (F := Ideal) ty x (ix3 a p n) = Cert.Spec.trip (Cert.Spec.distArr x) ty a p n := by
  rw [val_main_v42_apply, val_main_v40_apply, val_main_v38_apply, val_main_v36_apply, val_main_v34_apply,
    val_main_v32_apply, val_main_v35_apply, val_main_v33_apply, val_main_v39_apply, val_main_v41_apply,
    val_main_cst_6_apply, val_main_cst_7_apply]
  have e1 : idx_main_v32 (idx_main_v34 (ix3 a p n)) = ix2 a p :=
    funext fun c => Fin.ext (by match c with | ⟨0, _⟩ => rfl | ⟨1, _⟩ => rfl)
  have e2 : idx_main_v33 (idx_main_v35 (ix3 a p n)) = ix2 a n :=
    funext fun c => Fin.ext (by match c with | ⟨0, _⟩ => rfl | ⟨1, _⟩ => rfl)
  rw [e1, e2, dist_stage, dist_stage, mask_stage]
  rfl

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The float total: the sum of the clamped terms over all triplets (the initial zero word adds nothing). -/
private theorem loss_stage (ty : (⟨S512, .i32⟩ : BufTy).Contents (Elt Ideal))
    (x : (⟨S512x768, .f32⟩ : BufTy).Contents (Elt Ideal)) (i : S_.Idx) :
    val_main_v43 (F := Ideal) ty x i = Cert.Spec.lossTotal (Cert.Spec.distArr x) ty := by
  rw [val_main_v43_apply, val_main_cst_8_apply]
  show Ideal.ofBits .f32 0x00000000#32 + _ = _
  rw [Ideal.ofBits_zero_f32, zero_add, sum_idx3]
  unfold Cert.Spec.lossTotal
  exact Finset.sum_congr rfl fun a _ => Finset.sum_congr rfl fun p _ => Finset.sum_congr rfl fun n _ =>
    trip_stage ty x a p n

/-! ## The number of valid triplets -/

/-- The widened mask word of the triplet `(a, p, n)` is worth 1 or 0. -/
private theorem word_stage (ty : (⟨S512, .i32⟩ : BufTy).Contents (Elt Ideal)) (a p n : Fin 512) :
    (val_main_v44 (F := Ideal) ty (ix3 a p n)).toNat
      = if Cert.Spec.same ty a p ∧ ¬ Cert.Spec.same ty a n then 1 else 0 := by
  rw [val_main_v44_apply, StableHlo.Predicate.toNat_setWidth_bit, bit_stage]
  by_cases h : Cert.Spec.same ty a p ∧ ¬ Cert.Spec.same ty a n
  · rw [if_pos h, if_pos h, if_pos rfl]
  · rw [if_neg h, if_neg h, if_neg (by decide)]

/-- There are at most 512³ = 2²⁷ valid triplets. -/
private theorem count_le (ty : (⟨S512, .i32⟩ : BufTy).Contents (Elt Ideal)) :
    (∑ a : Fin 512, ∑ p : Fin 512, ∑ n : Fin 512,
      (if Cert.Spec.same ty a p ∧ ¬ Cert.Spec.same ty a n then 1 else 0 : ℕ)) ≤ 2 ^ 27 := by
  calc (∑ a : Fin 512, ∑ p : Fin 512, ∑ n : Fin 512,
          (if Cert.Spec.same ty a p ∧ ¬ Cert.Spec.same ty a n then 1 else 0 : ℕ))
      ≤ ∑ _a : Fin 512, ∑ _p : Fin 512, ∑ _n : Fin 512, (1 : ℕ) :=
        Finset.sum_le_sum fun a _ => Finset.sum_le_sum fun p _ => Finset.sum_le_sum fun n _ => by
          split_ifs <;> omega
    _ = 2 ^ 27 := by simp

/-- The word sum of the widened mask over all triplets does not wrap: its value is the number of valid triplets. -/
private theorem count_nat (ty : (⟨S512, .i32⟩ : BufTy).Contents (Elt Ideal)) (i : S_.Idx) :
    (val_main_v45 (F := Ideal) ty i).toNat
      = ∑ a : Fin 512, ∑ p : Fin 512, ∑ n : Fin 512,
          (if Cert.Spec.same ty a p ∧ ¬ Cert.Spec.same ty a n then 1 else 0 : ℕ) := by
  classical
  unfold val_main_v45
  rw [Host.reduce_eq_fold, Finset.filter_true_of_mem fun j _ => funext fun b => b.elim0]
  have hsum : ∑ j : S512x512x512.Idx, (val_main_v44 (F := Ideal) ty j).toNat
      = ∑ a : Fin 512, ∑ p : Fin 512, ∑ n : Fin 512,
          (if Cert.Spec.same ty a p ∧ ¬ Cert.Spec.same ty a n then 1 else 0 : ℕ) := by
    rw [sum_idx3]
    exact Finset.sum_congr rfl fun a _ => Finset.sum_congr rfl fun p _ => Finset.sum_congr rfl fun n _ =>
      word_stage ty a p n
  show (Finset.fold IntOp.addi 0#32 (val_main_v44 (F := Ideal) ty) Finset.univ).toNat = _
  rw [StableHlo.Predicate.toNat_fold_addi _ _
    (by rw [hsum]; exact lt_of_le_of_lt (count_le ty) (by norm_num)), hsum]

/-- A finite sum of reals, read as an extended real, is the sum of the terms read so. -/
private theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The count read signed and converted: the number of valid triplets as an extended real. -/
private theorem count_stage (ty : (⟨S512, .i32⟩ : BufTy).Contents (Elt Ideal)) (i : S_.Idx) :
    val_main_v46 (F := Ideal) ty i = Cert.Spec.validTotal ty := by
  rw [val_main_v46_apply]
  show (((val_main_v45 (F := Ideal) ty i).toInt : ℝ) : EReal) = _
  have hn := count_nat ty i
  have hlt : (val_main_v45 (F := Ideal) ty i).toNat < 2 ^ 31 := by
    rw [hn]; exact lt_of_le_of_lt (count_le ty) (by norm_num)
  rw [StableHlo.Predicate.toInt_eq_toNat_of_lt hlt, hn]
  unfold Cert.Spec.validTotal Cert.Spec.mask
  push_cast
  rw [coe_sum]
  refine Finset.sum_congr rfl fun a _ => ?_
  rw [coe_sum]
  refine Finset.sum_congr rfl fun p _ => ?_
  rw [coe_sum]
  refine Finset.sum_congr rfl fun n _ => ?_
  split_ifs <;> simp

/-! ## The result -/

/-- The reference's result array, as a function of the type ids and the embeddings, is the specification's. -/
theorem ref_result (ty : (⟨S512, .i32⟩ : BufTy).Contents (Elt Ideal)) (x : (⟨S512x768, .f32⟩ : BufTy).Contents (Elt Ideal)) :
    val_main_v47 (F := Ideal) ty x = Cert.Spec.result ty x := by
  funext i
  rw [val_main_v47_apply, loss_stage, count_stage]
  rfl

end Cert.RefValue

end
-- ==== Proof.lean ====
/-
  Batch triplet margin loss: a Pallas kernel in two pipelined regions against its jnp reference, over the extended reals.

  Both programs compute, for embeddings x : [512, 768] and type ids ty : [512], the quotient of
    Σ_{a,p,n} max ((d(a,p) − d(a,n)) · [ty a = ty p ∧ ty a ≠ ty n] + 1, 0)
  by the number of valid triplets Σ_{a,p,n} [ty a = ty p ∧ ty a ≠ ty n], where d is the pairwise Euclidean distance matrix
  (√ of the clamped squared distance where it is positive, 0 elsewhere). The kernel computes d in one region over the whole
  arrays, then walks the triplet cube in 4 × 4 × 4 tiles of 128³, carrying the two sums in two [1, 1] accumulators that the first
  grid point resets; its mask is the product of two 0/1 factors where the reference's is a conjunction, and its sums are staged
  axis by axis and tile by tile where the reference's is one sum. Addition of extended reals is commutative and associative,
  so the regrouping needs no finiteness; the reference's count is an integer sum of at most 2²⁷ ones, which does not wrap.

  The three frames: each kernel program's run (the frame modules, generic in the float instance) with its result dropped; the
  reference's generated run likewise. The idealization rewrote nothing, so `preserves` is trivial. `algebraic`: both runs end
  with the result at the specification of the (agreeing) arguments.
-/
import proofs.«430113_j6038724018541_3_alg».proof.Defs
import proofs.«430113_j6038724018541_3_alg».proof.Proof.Gen.Kernel
import proofs.«430113_j6038724018541_3_alg».proof.Proof.Gen.KernelIdeal
import proofs.«430113_j6038724018541_3_alg».proof.Proof.Gen.ReferenceIdeal
import proofs.«430113_j6038724018541_3_alg».proof.Proof.Gen.Pre_finite_inputs
import proofs.«430113_j6038724018541_3_alg».proof.Proof.Gen.ReferenceIdeal.Run
import proofs.«430113_j6038724018541_3_alg».proof.Proof.Gen.ReferenceIdeal.Read
import proofs.«430113_j6038724018541_3_alg».proof.Proof.K.Run
import proofs.«430113_j6038724018541_3_alg».proof.Proof.KI.Run
import proofs.«430113_j6038724018541_3_alg».proof.Proof.KIValue
import proofs.«430113_j6038724018541_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k [Cert.Kernel.Facts] [Cert.Pre_finite_inputs.Facts] : Cert.frame_Kernel := fun m ρ _ =>
  (θ_run Cert.Kernel.defs _ _).mono (fun _ h c => ⟨(h c).2.1, (h c).2.2⟩) (Cert.Kernel.Hand.run_main (F := Bits) m ρ)

/-- The idealized kernel runs to the end and leaves its arguments unchanged. -/
theorem frame_ki [Cert.KernelIdeal.Facts] [Cert.Pre_finite_inputs.Facts] : Cert.frame_KernelIdeal := fun m ρ _ =>
  (θ_run Cert.KernelIdeal.defs _ _).mono (fun _ h c => ⟨(h c).2.1, (h c).2.2⟩) (Cert.KernelIdeal.Hand.run_main (F := Ideal) m ρ)

/-- The idealized reference runs to the end and leaves its arguments unchanged. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both idealized programs end with the result at the specification of the arguments, which agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.result (Cert.KIValue.tyA m c) (Cert.KIValue.xA m c), ?_, ?_⟩
  · exact (θ_run Cert.KernelIdeal.defs _ _).mono
      (fun _ h c => ⟨(h c).1.trans (Cert.KIValue.kernel_result m c), (h c).2.1, (h c).2.2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, (hagree c).1, (hagree c).2]
    exact Cert.RefValue.ref_result _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
